-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S128x256 .f32) (main_arg6 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S2048x256 .f32) (main_arg1 : FVec F S256x256 .f32) (main_arg2 : FVec F S256 .f32) (main_arg3 : FVec F S256x256 .f32) (main_arg4 : FVec F S256 .f32) (main_arg5 : FVec F S128x256 .f32) (main_arg6 : FVec F S128 .f32) (main_arg7 : IVec S256x256 32) (main_arg8 : IVec S256x256 32) (main_arg9 : IVec S128x256 32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S2048x256 : Shape := ⟨2, ![2048, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256x256 : Shape := ⟨3, ![1, 256, 256]⟩
abbrev S4x256x256 : Shape := ⟨3, ![4, 256, 256]⟩
abbrev S_ : Shape := ⟨0, ![]⟩
abbrev S1x256x256x1 : Shape := ⟨4, ![1, 256, 256, 1]⟩
abbrev S1 : Shape := ⟨1, ![1]⟩
abbrev S1x1x1x1 : Shape := ⟨4, ![1, 1, 1, 1]⟩
abbrev S1x128x256 : Shape := ⟨3, ![1, 128, 256]⟩
abbrev S4x128x256 : Shape := ⟨3, ![4, 128, 256]⟩
abbrev S1x128x256x1 : Shape := ⟨4, ![1, 128, 256, 1]⟩
abbrev S256x128 : Shape := ⟨2, ![256, 128]⟩
abbrev S2048x128 : Shape := ⟨2, ![2048, 128]⟩
abbrev S64x256 : Shape := ⟨2, ![64, 256]⟩
abbrev S64x128 : Shape := ⟨2, ![64, 128]⟩
abbrev S64x256x1 : Shape := ⟨3, ![64, 256, 1]⟩
abbrev S1x256x128 : Shape := ⟨3, ![1, 256, 128]⟩
abbrev S64x256x128 : Shape := ⟨3, ![64, 256, 128]⟩
abbrev S1x128 : Shape := ⟨2, ![1, 128]⟩

abbrev nBuf : Space → Nat
  | .hbm => 110
  | .vmem => 12
  | .smem => 0
  | _ => 0

abbrev bufTy : (tb : Table) → Fin (tcTables nBuf tb) → BufTy
  | .hbm, ⟨0, _⟩ => ⟨S2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S256x256, .i32⟩
  | .hbm, ⟨8, _⟩ => ⟨S256x256, .i32⟩
  | .hbm, ⟨9, _⟩ => ⟨S128x256, .i32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S1x256x256, .f32⟩
  | .hbm, ⟨14, _⟩ => ⟨S1x256x256, .f32⟩
  | .hbm, ⟨15, _⟩ => ⟨S1x256x256, .f32⟩
  | .hbm, ⟨16, _⟩ => ⟨S1x256x256, .f32⟩
  | .hbm, ⟨17, _⟩ => ⟨S4x256x256, .f32⟩
  | .hbm, ⟨18, _⟩ => ⟨S1x256x256, .i32⟩
  | .hbm, ⟨19, _⟩ => ⟨S_, .i32⟩
  | .hbm, ⟨20, _⟩ => ⟨S1x256x256, .i32⟩
  | .hbm, ⟨21, _⟩ => ⟨S1x256x256, .i1⟩
  | .hbm, ⟨22, _⟩ => ⟨S_, .i32⟩
  | .hbm, ⟨23, _⟩ => ⟨S1x256x256, .i32⟩
  | .hbm, ⟨24, _⟩ => ⟨S1x256x256, .i32⟩
  | .hbm, ⟨25, _⟩ => ⟨S1x256x256, .i32⟩
  | .hbm, ⟨26, _⟩ => ⟨S1x256x256x1, .i32⟩
  | .hbm, ⟨27, _⟩ => ⟨S1, .i32⟩
  | .hbm, ⟨28, _⟩ => ⟨S_, .i32⟩
  | .hbm, ⟨29, _⟩ => ⟨S1x256x256x1, .i32⟩
  | .hbm, ⟨30, _⟩ => ⟨S1x256x256x1, .i1⟩
  | .hbm, ⟨31, _⟩ => ⟨S1x1x1x1, .i32⟩
  | .hbm, ⟨32, _⟩ => ⟨S1x256x256x1, .i32⟩
  | .hbm, ⟨33, _⟩ => ⟨S1x256x256x1, .i1⟩
  | .hbm, ⟨34, _⟩ => ⟨S1x256x256x1, .i1⟩
  | .hbm, ⟨35, _⟩ => ⟨S_, .i1⟩
  | .hbm, ⟨36, _⟩ => ⟨S1x256x256, .i1⟩
  | .hbm, ⟨37, _⟩ => ⟨S1x256x256, .f32⟩
  | .hbm, ⟨38, _⟩ => ⟨S_, .f32⟩
  | .hbm, ⟨39, _⟩ => ⟨S1x256x256, .f32⟩
  | .hbm, ⟨40, _⟩ => ⟨S1x256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S1x256x256, .f32⟩
  | .hbm, ⟨47, _⟩ => ⟨S1x256x256, .f32⟩
  | .hbm, ⟨48, _⟩ => ⟨S1x256x256, .f32⟩
  | .hbm, ⟨49, _⟩ => ⟨S1x256x256, .f32⟩
  | .hbm, ⟨50, _⟩ => ⟨S4x256x256, .f32⟩
  | .hbm, ⟨51, _⟩ => ⟨S1x256x256, .i32⟩
  | .hbm, ⟨52, _⟩ => ⟨S_, .i32⟩
  | .hbm, ⟨53, _⟩ => ⟨S1x256x256, .i32⟩
  | .hbm, ⟨54, _⟩ => ⟨S1x256x256, .i1⟩
  | .hbm, ⟨55, _⟩ => ⟨S_, .i32⟩
  | .hbm, ⟨56, _⟩ => ⟨S1x256x256, .i32⟩
  | .hbm, ⟨57, _⟩ => ⟨S1x256x256, .i32⟩
  | .hbm, ⟨58, _⟩ => ⟨S1x256x256, .i32⟩
  | .hbm, ⟨59, _⟩ => ⟨S1x256x256x1, .i32⟩
  | .hbm, ⟨60, _⟩ => ⟨S1, .i32⟩
  | .hbm, ⟨61, _⟩ => ⟨S_, .i32⟩
  | .hbm, ⟨62, _⟩ => ⟨S1x256x256x1, .i32⟩
  | .hbm, ⟨63, _⟩ => ⟨S1x256x256x1, .i1⟩
  | .hbm, ⟨64, _⟩ => ⟨S1x1x1x1, .i32⟩
  | .hbm, ⟨65, _⟩ => ⟨S1x256x256x1, .i32⟩
  | .hbm, ⟨66, _⟩ => ⟨S1x256x256x1, .i1⟩
  | .hbm, ⟨67, _⟩ => ⟨S1x256x256x1, .i1⟩
  | .hbm, ⟨68, _⟩ => ⟨S_, .i1⟩
  | .hbm, ⟨69, _⟩ => ⟨S1x256x256, .i1⟩
  | .hbm, ⟨70, _⟩ => ⟨S1x256x256, .f32⟩
  | .hbm, ⟨71, _⟩ => ⟨S_, .f32⟩
  | .hbm, ⟨72, _⟩ => ⟨S1x256x256, .f32⟩
  | .hbm, ⟨73, _⟩ => ⟨S1x256x256, .f32⟩
  | .hbm, ⟨74, _⟩ => ⟨S256x256, .f32⟩
  | .hbm, ⟨75, _⟩ => ⟨S256x256, .f32⟩
  | .hbm, ⟨76, _⟩ => ⟨S128x256, .f32⟩
  | .hbm, ⟨77, _⟩ => ⟨S128x256, .f32⟩
  | .hbm, ⟨78, _⟩ => ⟨S128x256, .f32⟩
  | .hbm, ⟨79, _⟩ => ⟨S1x128x256, .f32⟩
  | .hbm, ⟨80, _⟩ => ⟨S1x128x256, .f32⟩
  | .hbm, ⟨81, _⟩ => ⟨S1x128x256, .f32⟩
  | .hbm, ⟨82, _⟩ => ⟨S1x128x256, .f32⟩
  | .hbm, ⟨83, _⟩ => ⟨S4x128x256, .f32⟩
  | .hbm, ⟨84, _⟩ => ⟨S1x128x256, .i32⟩
  | .hbm, ⟨85, _⟩ => ⟨S_, .i32⟩
  | .hbm, ⟨86, _⟩ => ⟨S1x128x256, .i32⟩
  | .hbm, ⟨87, _⟩ => ⟨S1x128x256, .i1⟩
  | .hbm, ⟨88, _⟩ => ⟨S_, .i32⟩
  | .hbm, ⟨89, _⟩ => ⟨S1x128x256, .i32⟩
  | .hbm, ⟨90, _⟩ => ⟨S1x128x256, .i32⟩
  | .hbm, ⟨91, _⟩ => ⟨S1x128x256, .i32⟩
  | .hbm, ⟨92, _⟩ => ⟨S1x128x256x1, .i32⟩
  | .hbm, ⟨93, _⟩ => ⟨S1, .i32⟩
  | .hbm, ⟨94, _⟩ => ⟨S_, .i32⟩
  | .hbm, ⟨95, _⟩ => ⟨S1x128x256x1, .i32⟩
  | .hbm, ⟨96, _⟩ => ⟨S1x128x256x1, .i1⟩
  | .hbm, ⟨97, _⟩ => ⟨S1x1x1x1, .i32⟩
  | .hbm, ⟨98, _⟩ => ⟨S1x128x256x1, .i32⟩
  | .hbm, ⟨99, _⟩ => ⟨S1x128x256x1, .i1⟩
  | .hbm, ⟨100, _⟩ => ⟨S1x128x256x1, .i1⟩
  | .hbm, ⟨101, _⟩ => ⟨S_, .i1⟩
  | .hbm, ⟨102, _⟩ => ⟨S1x128x256, .i1⟩
  | .hbm, ⟨103, _⟩ => ⟨S1x128x256, .f32⟩
  | .hbm, ⟨104, _⟩ => ⟨S_, .f32⟩
  | .hbm, ⟨105, _⟩ => ⟨S1x128x256, .f32⟩
  | .hbm, ⟨106, _⟩ => ⟨S1x128x256, .f32⟩
  | .hbm, ⟨107, _⟩ => ⟨S128x256, .f32⟩
  | .hbm, ⟨108, _⟩ => ⟨S256x128, .f32⟩
  | .hbm, ⟨109, _⟩ => ⟨S2048x128, .f32⟩
  | .local _ .vmem, ⟨0, _⟩ => ⟨S64x256, .f32⟩
  | .local _ .vmem, ⟨1, _⟩ => ⟨S64x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S64x128, .f32⟩
  | .local _ .vmem, ⟨9, _⟩ => ⟨S64x128, .f32⟩
  | .local _ .vmem, ⟨10, _⟩ => ⟨S64x256, .f32⟩
  | .local _ .vmem, ⟨11, _⟩ => ⟨S64x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_cst : Ref sig .tc := ⟨.hbm, 104, rfl⟩
abbrev main_call2_v14 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S256x256_S1x256x256_1_2 : S256x256.BroadcastsInDim S1x256x256 (![1, 2] : Fin 2 → Fin S1x256x256.rank)
  concatenates_S1x256x256_S1x256x256_S1x256x256_S1x256x256_S4x256x256_d0 : Shape.Concatenates [S1x256x256, S1x256x256, S1x256x256, S1x256x256] S4x256x256 0
  bcast_S_S1x256x256 : S_.BroadcastsInDim S1x256x256 (![] : Fin 0 → Fin S1x256x256.rank)
  shapeCasts_S1x256x256_S1x256x256x1 : S1x256x256.ShapeCasts S1x256x256x1
  bcast_S_S1x256x256x1 : S_.BroadcastsInDim S1x256x256x1 (![] : Fin 0 → Fin S1x256x256x1.rank)
  bcast_S1_S1x1x1x1_3 : S1.BroadcastsInDim S1x1x1x1 (![3] : Fin 1 → Fin S1x1x1x1.rank)
  bcast_S1x1x1x1_S1x256x256x1_0_1_2_3 : S1x1x1x1.BroadcastsInDim S1x256x256x1 (![0, 1, 2, 3] : Fin 4 → Fin S1x256x256x1.rank)
  reducesTo_S1x256x256x1_S1x256x256_d3 : S1x256x256x1.ReducesTo [3] S1x256x256
  h_S_ : 0 < S_.numel
  shapeCasts_S1x256x256_S256x256 : S1x256x256.ShapeCasts S256x256
  transposes_S256x256_S256x256_1_0 : S256x256.Transposes [1, 0] S256x256
  bcast_S128x256_S1x128x256_1_2 : S128x256.BroadcastsInDim S1x128x256 (![1, 2] : Fin 2 → Fin S1x128x256.rank)
  concatenates_S1x128x256_S1x128x256_S1x128x256_S1x128x256_S4x128x256_d0 : Shape.Concatenates [S1x128x256, S1x128x256, S1x128x256, S1x128x256] S4x128x256 0
  bcast_S_S1x128x256 : S_.BroadcastsInDim S1x128x256 (![] : Fin 0 → Fin S1x128x256.rank)
  shapeCasts_S1x128x256_S1x128x256x1 : S1x128x256.ShapeCasts S1x128x256x1
  bcast_S_S1x128x256x1 : S_.BroadcastsInDim S1x128x256x1 (![] : Fin 0 → Fin S1x128x256x1.rank)
  bcast_S1x1x1x1_S1x128x256x1_0_1_2_3 : S1x1x1x1.BroadcastsInDim S1x128x256x1 (![0, 1, 2, 3] : Fin 4 → Fin S1x128x256x1.rank)
  reducesTo_S1x128x256x1_S1x128x256_d3 : S1x128x256x1.ReducesTo [3] S1x128x256
  shapeCasts_S1x128x256_S128x256 : S1x128x256.ShapeCasts S128x256
  transposes_S128x256_S256x128_1_0 : S128x256.Transposes [1, 0] S256x128
  inb_S64x256_S64x256_0_0 : ∀ a, (![0, 0] : Fin 2 → Nat) a + S64x256.size a ≤ S64x256.size a
  h_S64x256 : 0 < S64x256.numel
  inb_S256x256_S256x128_0_0 : ∀ a, (![0, 0] : Fin 2 → Nat) a + S256x128.size a ≤ S256x256.size a
  h_S256x128 : 0 < S256x128.numel
  shapeCasts_S256x128_S256x128 : S256x128.ShapeCasts S256x128
  inb_S256_S128_0 : ∀ a, (![0] : Fin 1 → Nat) a + S128.size a ≤ S256.size a
  h_S128 : 0 < S128.numel
  shapeCasts_S64x256_S64x256x1 : S64x256.ShapeCasts S64x256x1
  shapeCasts_S256x128_S1x256x128 : S256x128.ShapeCasts S1x256x128
  broadcasts_S64x256x1_S64x256x128 : S64x256x1.Broadcasts S64x256x128
  broadcasts_S1x256x128_S64x256x128 : S1x256x128.Broadcasts S64x256x128
  reduces_S64x256x128_S64x128 : S64x256x128.Reduces [1] S64x128
  shapeCasts_S128_S1x128 : S128.ShapeCasts S1x128
  broadcasts_S1x128_S64x128 : S1x128.Broadcasts S64x128
  inb_S64x256_S64x128_0_0 : ∀ a, (![0, 0] : Fin 2 → Nat) a + S64x128.size a ≤ S64x256.size a
  h_S64x128 : 0 < S64x128.numel
  shapeCasts_S64x128_S64x128 : S64x128.ShapeCasts S64x128
  inb_S256x256_S256x128_0_128 : ∀ a, (![0, 128] : Fin 2 → Nat) a + S256x128.size a ≤ S256x256.size a
  inb_S256_S128_128 : ∀ a, (![128] : Fin 1 → Nat) a + S128.size a ≤ S256.size a
  inb_S64x256_S64x128_0_128 : ∀ a, (![0, 128] : Fin 2 → Nat) a + S64x128.size a ≤ S64x256.size a
  inb_S256x128_S256x128_0_0 : ∀ a, (![0, 0] : Fin 2 → Nat) a + S256x128.size a ≤ S256x128.size a
  inb_S128_S128_0 : ∀ a, (![0] : Fin 1 → Nat) a + S128.size a ≤ S128.size a
  inb_S64x128_S64x128_0_0 : ∀ a, (![0, 0] : Fin 2 → Nat) a + S64x128.size a ≤ S64x128.size a
  gather_S4x256x256_S1x256x256x1_S1x256x256_n_0_12_12_0_3_111_wf : GatherDims.WF S4x256x256 S1x256x256x1 S1x256x256 [] [0] [1, 2] [0] [1, 2] 3 ![1, 1, 1]
  gather_S4x128x256_S1x128x256x1_S1x128x256_n_0_12_12_0_3_111_wf : GatherDims.WF S4x128x256 S1x128x256x1 S1x128x256 [] [0] [1, 2] [0] [1, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S2048x256.size a
  hwx0_0 : ∀ i : grid0.Coords, EltTy.bits .f32 = 32 ∨ (Rect.block (s := S2048x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S2048x128.size a
  hwx0_7 : ∀ i : grid0.Coords, EltTy.bits .f32 = 32 ∨ (Rect.block (s := S2048x128) S64x128.size (cc0_transform_7 i) (hinb0_7 i)).WholeWords (EltTy.packing .f32)

variable [Facts₀]

def gather_S4x256x256_S1x256x256x1_S1x256x256_n_0_12_12_0_3_111 : GatherDims S4x256x256 S1x256x256x1 S1x256x256 where
  offsetDims := []
  collapsedSliceDims := [0]
  operandBatchingDims := [1, 2]
  startIndicesBatchingDims := [1, 2]
  startIndexMap := [0]
  indexVectorDim := 3
  sliceSizes := ![1, 1, 1]
  wf := gather_S4x256x256_S1x256x256x1_S1x256x256_n_0_12_12_0_3_111_wf
def gather_S4x128x256_S1x128x256x1_S1x128x256_n_0_12_12_0_3_111 : GatherDims S4x128x256 S1x128x256x1 S1x128x256 where
  offsetDims := []
  collapsedSliceDims := [0]
  operandBatchingDims := [1, 2]
  startIndicesBatchingDims := [1, 2]
  startIndexMap := [0]
  indexVectorDim := 3
  sliceSizes := ![1, 1, 1]
  wf := gather_S4x128x256_S1x128x256x1_S1x128x256_n_0_12_12_0_3_111_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256x256 : Shape := ⟨3, ![1, 256, 256]⟩
abbrev S4x256x256 : Shape := ⟨3, ![4, 256, 256]⟩
abbrev S_ : Shape := ⟨0, ![]⟩
abbrev S1x256x256x1 : Shape := ⟨4, ![1, 256, 256, 1]⟩
abbrev S1 : Shape := ⟨1, ![1]⟩
abbrev S1x1x1x1 : Shape := ⟨4, ![1, 1, 1, 1]⟩
abbrev S2048x1x256 : Shape := ⟨3, ![2048, 1, 256]⟩
abbrev S2048x256x256 : Shape := ⟨3, ![2048, 256, 256]⟩
abbrev S1x256 : Shape := ⟨2, ![1, 256]⟩
abbrev S1x128x256 : Shape := ⟨3, ![1, 128, 256]⟩
abbrev S4x128x256 : Shape := ⟨3, ![4, 128, 256]⟩
abbrev S1x128x256x1 : Shape := ⟨4, ![1, 128, 256, 1]⟩
abbrev S2048x128x256 : Shape := ⟨3, ![2048, 128, 256]⟩
abbrev S2048x128 : Shape := ⟨2, ![2048, 128]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S2048x256, .f32⟩
  | 1 => ⟨S256x256, .f32⟩
  | 2 => ⟨S256, .f32⟩
  | 3 => ⟨S256x256, .f32⟩
  | 4 => ⟨S256, .f32⟩
  | 5 => ⟨S128x256, .f32⟩
  | 6 => ⟨S128, .f32⟩
  | 7 => ⟨S256x256, .i32⟩
  | 8 => ⟨S256x256, .i32⟩
  | 9 => ⟨S128x256, .i32⟩
  | 10 => ⟨S256x256, .f32⟩
  | 11 => ⟨S256x256, .f32⟩
  | 12 => ⟨S256x256, .f32⟩
  | 13 => ⟨S1x256x256, .f32⟩
  | 14 => ⟨S1x256x256, .f32⟩
  | 15 => ⟨S1x256x256, .f32⟩
  | 16 => ⟨S1x256x256, .f32⟩
  | 17 => ⟨S4x256x256, .f32⟩
  | 18 => ⟨S1x256x256, .i32⟩
  | 19 => ⟨S_, .i32⟩
  | 20 => ⟨S1x256x256, .i32⟩
  | 21 => ⟨S1x256x256, .i1⟩
  | 22 => ⟨S_, .i32⟩
  | 23 => ⟨S1x256x256, .i32⟩
  | 24 => ⟨S1x256x256, .i32⟩
  | 25 => ⟨S1x256x256, .i32⟩
  | 26 => ⟨S1x256x256x1, .i32⟩
  | 27 => ⟨S1, .i32⟩
  | 28 => ⟨S_, .i32⟩
  | 29 => ⟨S1x256x256x1, .i32⟩
  | 30 => ⟨S1x256x256x1, .i1⟩
  | 31 => ⟨S1x1x1x1, .i32⟩
  | 32 => ⟨S1x256x256x1, .i32⟩
  | 33 => ⟨S1x256x256x1, .i1⟩
  | 34 => ⟨S1x256x256x1, .i1⟩
  | 35 => ⟨S_, .i1⟩
  | 36 => ⟨S1x256x256, .i1⟩
  | 37 => ⟨S1x256x256, .f32⟩
  | 38 => ⟨S_, .f32⟩
  | 39 => ⟨S1x256x256, .f32⟩
  | 40 => ⟨S1x256x256, .f32⟩
  | 41 => ⟨S256x256, .f32⟩
  | 42 => ⟨S2048x1x256, .f32⟩
  | 43 => ⟨S1x256x256, .f32⟩
  | 44 => ⟨S2048x256x256, .f32⟩
  | 45 => ⟨S2048x256x256, .f32⟩
  | 46 => ⟨S2048x256x256, .f32⟩
  | 47 => ⟨S2048x256x256, .f32⟩
  | 48 => ⟨S_, .f32⟩
  | 49 => ⟨S2048x256, .f32⟩
  | 50 => ⟨S1x256, .f32⟩
  | 51 => ⟨S2048x256, .f32⟩
  | 52 => ⟨S2048x256, .f32⟩
  | 53 => ⟨S256x256, .f32⟩
  | 54 => ⟨S256x256, .f32⟩
  | 55 => ⟨S256x256, .f32⟩
  | 56 => ⟨S1x256x256, .f32⟩
  | 57 => ⟨S1x256x256, .f32⟩
  | 58 => ⟨S1x256x256, .f32⟩
  | 59 => ⟨S1x256x256, .f32⟩
  | 60 => ⟨S4x256x256, .f32⟩
  | 61 => ⟨S1x256x256, .i32⟩
  | 62 => ⟨S_, .i32⟩
  | 63 => ⟨S1x256x256, .i32⟩
  | 64 => ⟨S1x256x256, .i1⟩
  | 65 => ⟨S_, .i32⟩
  | 66 => ⟨S1x256x256, .i32⟩
  | 67 => ⟨S1x256x256, .i32⟩
  | 68 => ⟨S1x256x256, .i32⟩
  | 69 => ⟨S1x256x256x1, .i32⟩
  | 70 => ⟨S1, .i32⟩
  | 71 => ⟨S_, .i32⟩
  | 72 => ⟨S1x256x256x1, .i32⟩
  | 73 => ⟨S1x256x256x1, .i1⟩
  | 74 => ⟨S1x1x1x1, .i32⟩
  | 75 => ⟨S1x256x256x1, .i32⟩
  | 76 => ⟨S1x256x256x1, .i1⟩
  | 77 => ⟨S1x256x256x1, .i1⟩
  | 78 => ⟨S_, .i1⟩
  | 79 => ⟨S1x256x256, .i1⟩
  | 80 => ⟨S1x256x256, .f32⟩
  | 81 => ⟨S_, .f32⟩
  | 82 => ⟨S1x256x256, .f32⟩
  | 83 => ⟨S1x256x256, .f32⟩
  | 84 => ⟨S256x256, .f32⟩
  | 85 => ⟨S2048x1x256, .f32⟩
  | 86 => ⟨S1x256x256, .f32⟩
  | 87 => ⟨S2048x256x256, .f32⟩
  | 88 => ⟨S2048x256x256, .f32⟩
  | 89 => ⟨S2048x256x256, .f32⟩
  | 90 => ⟨S2048x256x256, .f32⟩
  | 91 => ⟨S_, .f32⟩
  | 92 => ⟨S2048x256, .f32⟩
  | 93 => ⟨S1x256, .f32⟩
  | 94 => ⟨S2048x256, .f32⟩
  | 95 => ⟨S2048x256, .f32⟩
  | 96 => ⟨S128x256, .f32⟩
  | 97 => ⟨S128x256, .f32⟩
  | 98 => ⟨S128x256, .f32⟩
  | 99 => ⟨S1x128x256, .f32⟩
  | 100 => ⟨S1x128x256, .f32⟩
  | 101 => ⟨S1x128x256, .f32⟩
  | 102 => ⟨S1x128x256, .f32⟩
  | 103 => ⟨S4x128x256, .f32⟩
  | 104 => ⟨S1x128x256, .i32⟩
  | 105 => ⟨S_, .i32⟩
  | 106 => ⟨S1x128x256, .i32⟩
  | 107 => ⟨S1x128x256, .i1⟩
  | 108 => ⟨S_, .i32⟩
  | 109 => ⟨S1x128x256, .i32⟩
  | 110 => ⟨S1x128x256, .i32⟩
  | 111 => ⟨S1x128x256, .i32⟩
  | 112 => ⟨S1x128x256x1, .i32⟩
  | 113 => ⟨S1, .i32⟩
  | 114 => ⟨S_, .i32⟩
  | 115 => ⟨S1x128x256x1, .i32⟩
  | 116 => ⟨S1x128x256x1, .i1⟩
  | 117 => ⟨S1x1x1x1, .i32⟩
  | 118 => ⟨S1x128x256x1, .i32⟩
  | 119 => ⟨S1x128x256x1, .i1⟩
  | 120 => ⟨S1x128x256x1, .i1⟩
  | 121 => ⟨S_, .i1⟩
  | 122 => ⟨S1x128x256, .i1⟩
  | 123 => ⟨S1x128x256, .f32⟩
  | 124 => ⟨S_, .f32⟩
  | 125 => ⟨S1x128x256, .f32⟩
  | 126 => ⟨S1x128x256, .f32⟩
  | 127 => ⟨S128x256, .f32⟩
  | _ => ⟨S2048x256, .f32⟩

abbrev hbmTy0_1 (i : Nat) : BufTy := match i % 128 with
  | 0 => ⟨S2048x1x256, .f32⟩
  | 1 => ⟨S1x128x256, .f32⟩
  | 2 => ⟨S2048x128x256, .f32⟩
  | 3 => ⟨S2048x128x256, .f32⟩
  | 4 => ⟨S2048x128x256, .f32⟩
  | 5 => ⟨S_, .f32⟩
  | 6 => ⟨S2048x128, .f32⟩
  | 7 => ⟨S1x128, .f32⟩
  | 8 => ⟨S2048x128, .f32⟩
  | 9 => ⟨S2048x128, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_cst : Ref sig .tc := ⟨.hbm, 81, rfl⟩
abbrev main_call1_v14 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_0 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_cst : Ref sig .tc := ⟨.hbm, 124, rfl⟩
abbrev main_call2_v14 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_1 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩

abbrev nD : Nat := 1
abbrev τ : Topo := Topo.v7x

variable {F : FTy → Type} [FloatOps F]

class Facts₀ : Prop where
  bcast_S256x256_S1x256x256_1_2 : S256x256.BroadcastsInDim S1x256x256 (![1, 2] : Fin 2 → Fin S1x256x256.rank)
  concatenates_S1x256x256_S1x256x256_S1x256x256_S1x256x256_S4x256x256_d0 : Shape.Concatenates [S1x256x256, S1x256x256, S1x256x256, S1x256x256] S4x256x256 0
  bcast_S_S1x256x256 : S_.BroadcastsInDim S1x256x256 (![] : Fin 0 → Fin S1x256x256.rank)
  shapeCasts_S1x256x256_S1x256x256x1 : S1x256x256.ShapeCasts S1x256x256x1
  bcast_S_S1x256x256x1 : S_.BroadcastsInDim S1x256x256x1 (![] : Fin 0 → Fin S1x256x256x1.rank)
  bcast_S1_S1x1x1x1_3 : S1.BroadcastsInDim S1x1x1x1 (![3] : Fin 1 → Fin S1x1x1x1.rank)
  bcast_S1x1x1x1_S1x256x256x1_0_1_2_3 : S1x1x1x1.BroadcastsInDim S1x256x256x1 (![0, 1, 2, 3] : Fin 4 → Fin S1x256x256x1.rank)
  reducesTo_S1x256x256x1_S1x256x256_d3 : S1x256x256x1.ReducesTo [3] S1x256x256
  h_S_ : 0 < S_.numel
  shapeCasts_S1x256x256_S256x256 : S1x256x256.ShapeCasts S256x256
  bcast_S2048x256_S2048x1x256_0_2 : S2048x256.BroadcastsInDim S2048x1x256 (![0, 2] : Fin 2 → Fin S2048x1x256.rank)
  bcast_S2048x1x256_S2048x256x256_0_1_2 : S2048x1x256.BroadcastsInDim S2048x256x256 (![0, 1, 2] : Fin 3 → Fin S2048x256x256.rank)
  bcast_S1x256x256_S2048x256x256_0_1_2 : S1x256x256.BroadcastsInDim S2048x256x256 (![0, 1, 2] : Fin 3 → Fin S2048x256x256.rank)
  reducesTo_S2048x256x256_S2048x256_d2 : S2048x256x256.ReducesTo [2] S2048x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S128x256_S1x128x256_1_2 : S128x256.BroadcastsInDim S1x128x256 (![1, 2] : Fin 2 → Fin S1x128x256.rank)
  concatenates_S1x128x256_S1x128x256_S1x128x256_S1x128x256_S4x128x256_d0 : Shape.Concatenates [S1x128x256, S1x128x256, S1x128x256, S1x128x256] S4x128x256 0
  bcast_S_S1x128x256 : S_.BroadcastsInDim S1x128x256 (![] : Fin 0 → Fin S1x128x256.rank)
  shapeCasts_S1x128x256_S1x128x256x1 : S1x128x256.ShapeCasts S1x128x256x1
  bcast_S_S1x128x256x1 : S_.BroadcastsInDim S1x128x256x1 (![] : Fin 0 → Fin S1x128x256x1.rank)
  bcast_S1x1x1x1_S1x128x256x1_0_1_2_3 : S1x1x1x1.BroadcastsInDim S1x128x256x1 (![0, 1, 2, 3] : Fin 4 → Fin S1x128x256x1.rank)
  reducesTo_S1x128x256x1_S1x128x256_d3 : S1x128x256x1.ReducesTo [3] S1x128x256
  shapeCasts_S1x128x256_S128x256 : S1x128x256.ShapeCasts S128x256
  bcast_S2048x1x256_S2048x128x256_0_1_2 : S2048x1x256.BroadcastsInDim S2048x128x256 (![0, 1, 2] : Fin 3 → Fin S2048x128x256.rank)
  bcast_S1x128x256_S2048x128x256_0_1_2 : S1x128x256.BroadcastsInDim S2048x128x256 (![0, 1, 2] : Fin 3 → Fin S2048x128x256.rank)
  reducesTo_S2048x128x256_S2048x128_d2 : S2048x128x256.ReducesTo [2] S2048x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  gather_S4x256x256_S1x256x256x1_S1x256x256_n_0_12_12_0_3_111_wf : GatherDims.WF S4x256x256 S1x256x256x1 S1x256x256 [] [0] [1, 2] [0] [1, 2] 3 ![1, 1, 1]
  gather_S4x128x256_S1x128x256x1_S1x128x256_n_0_12_12_0_3_111_wf : GatherDims.WF S4x128x256 S1x128x256x1 S1x128x256 [] [0] [1, 2] [0] [1, 2] 3 ![1, 1, 1]

variable [Facts₀]

def gather_S4x256x256_S1x256x256x1_S1x256x256_n_0_12_12_0_3_111 : GatherDims S4x256x256 S1x256x256x1 S1x256x256 where
  offsetDims := []
  collapsedSliceDims := [0]
  operandBatchingDims := [1, 2]
  startIndicesBatchingDims := [1, 2]
  startIndexMap := [0]
  indexVectorDim := 3
  sliceSizes := ![1, 1, 1]
  wf := gather_S4x256x256_S1x256x256x1_S1x256x256_n_0_12_12_0_3_111_wf
def gather_S4x128x256_S1x128x256x1_S1x128x256_n_0_12_12_0_3_111 : GatherDims S4x128x256 S1x128x256x1 S1x128x256 where
  offsetDims := []
  collapsedSliceDims := [0]
  operandBatchingDims := [1, 2]
  startIndicesBatchingDims := [1, 2]
  startIndexMap := [0]
  indexVectorDim := 3
  sliceSizes := ![1, 1, 1]
  wf := gather_S4x128x256_S1x128x256x1_S1x128x256_n_0_12_12_0_3_111_wf

class Facts : Prop extends Facts₀ where

variable [Facts]
-- ==== Proof.K.Kit.lean ====
import proofs.«409890_j44813688767073_3_alg».proof.Proof.Gen.Kernel.Launch
import proofs.«409890_j44813688767073_3_alg».proof.Proof.Gen.Kernel.Points
import Idealize.ShloMosaic.Lib.Pipeline.FrameBody
import Idealize.ShloMosaic.Lib.Ring
import Idealize.ShloMosaic.Lib.Tactic
/-
  The launch side of the one pallas_call, stated once for any float family.

  * `V`: what core c's buffers hold when the region is entered — the launch contents carried through the
    ninety-nine host operations that select the three weight matrices (seven stretches: @main's own lines and the
    three inlined selection functions) —, and `hmain`: @main is those stretches followed by the region.
  * `V_main_argK`: none of those operations writes an argument, so the region finds each argument as launched.
  * `iblk`: window w's block at grid point t, read off the array the region finds.
  * `beforeW_of`: an input window's staging buffer holds its block at every point, fetched there or not — the
    batch rows move with the point, the six weight and bias windows stay at block 0 and are fetched once.
  * `frame_of`: a run that ends with every staged array at the proof data's final contents and every other
    unscoped buffer as the region found it leaves all ten arguments as launched.
-/

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The user algebra the frame run is read at, and the certificate's variants: none. -/
abbrev UU (nD : Nat) (τ : Topo) : Type := UR sig nD τ
abbrev 𝒱₀ : Variants := Variants.none

/-! ## @main up to the region -/

/-- Core c's TensorCore buffers when the region is entered: the launch contents after the seven host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the seven stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose
    array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not, for any proof data whose
    array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not, for any proof data whose
    array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — every staged
    array at the proof data's final contents, every other unscoped buffer as the region found it — leaves all ten
    arguments as launched: a staged input keeps its contents through the run, an argument no window stages is an
    unscoped buffer the region does not touch, and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.Proof.K

end
-- ==== Proof.K.Out.lean ====
import proofs.«409890_j44813688767073_3_alg».proof.Proof.Gen.Kernel.Skeleton
import Idealize.ShloMosaic.Lib.Pipeline.FrameBody
import Idealize.ShloMosaic.Lib.Pipeline.Value
/-
  What one grid point computes, as a function of the seven input blocks, for any float family.

  The body works on 64 batch rows x. Each layer's 256 (or 128) output units are produced 128 at a time: a chunk takes
  the columns [0,128) or [128,256) of the staged transposed weights and of the bias, multiplies every row entry by every
  weight of the chunk, applies tanh (hidden layers), sums over the 256 inputs and adds the bias. The two chunks of a
  hidden layer are stored side by side into a 64 × 256 scratch, which the next layer reads back whole.

  * `S1 x w0 b0`: the first scratch after its two stores — the canonical contents of the two column chunks;
  * `S2 h w1 b1`: the second scratch, the same over the first scratch's contents h;
  * `OUT`: the output block, the last layer's single chunk over the second scratch.
-/

noncomputable section

namespace Cert.Proof.K

open Cert.Kernel Cert.Kernel.Gen
open Idealize.ShloMosaic

variable {F : FTy → Type} [FloatOps F]

/-- The column chunks the body loads and stores through: of a 256 × 256 weight buffer, of a 256-entry bias buffer, of a
    64 × 256 scratch — left half (columns from 0) and right half (columns from 128). -/
abbrev rWL : Rect S256x256 := Rect.unit (s := S256x256) ![0, 0] S256x128.size inb_S256x256_S256x128_0_0
abbrev rWR : Rect S256x256 := Rect.unit (s := S256x256) ![0, 128] S256x128.size inb_S256x256_S256x128_0_128
abbrev rBL : Rect S256 := Rect.unit (s := S256) ![0] S128.size inb_S256_S128_0
abbrev rBR : Rect S256 := Rect.unit (s := S256) ![128] S128.size inb_S256_S128_128
abbrev rHL : Rect S64x256 := Rect.unit (s := S64x256) ![0, 0] S64x128.size inb_S64x256_S64x128_0_0
abbrev rHR : Rect S64x256 := Rect.unit (s := S64x256) ![0, 128] S64x128.size inb_S64x256_S64x128_0_128

/-- The first hidden layer's two stores, the later one first: the right chunk, then the left chunk. -/
def L1 (x : Vec F S64x256 .f32) (w0 : Vec F S256x256 .f32) (b0 : Vec F S256 .f32) : List (View.Piece (Elt F) S64x256 .f32) :=
  [⟨rHR, k0_pay2 x (View.ld w0 rWR) (View.ld b0 rBR)⟩, ⟨rHL, k0_pay1 x (View.ld w0 rWL) (View.ld b0 rBL)⟩]

/-- The first scratch after them: the first hidden layer's 64 × 256 activations. -/
def S1 (x : Vec F S64x256 .f32) (w0 : Vec F S256x256 .f32) (b0 : Vec F S256 .f32) : Vec F S64x256 .f32 :=
  View.canon (L1 x w0 b0)

/-- The second hidden layer's two stores over the activations h, the later one first. -/
def L2 (h : Vec F S64x256 .f32) (w1 : Vec F S256x256 .f32) (b1 : Vec F S256 .f32) : List (View.Piece (Elt F) S64x256 .f32) :=
  [⟨rHR, k0_pay6 h (View.ld w1 rWR) (View.ld b1 rBR)⟩, ⟨rHL, k0_pay5 (k0_pay3 (View.ld w1 rWL)) (View.ld b1 rBL) (k0_pay4 h)⟩]

/-- The second scratch after them. -/
def S2 (h : Vec F S64x256 .f32) (w1 : Vec F S256x256 .f32) (b1 : Vec F S256 .f32) : Vec F S64x256 .f32 :=
  View.canon (L2 h w1 b1)

/-- The output block of a grid point from its seven input blocks. -/
def OUT (x : Vec F S64x256 .f32) (w0 : Vec F S256x256 .f32) (b0 : Vec F S256 .f32) (w1 : Vec F S256x256 .f32) (b1 : Vec F S256 .f32)
    (w2 : Vec F S256x128 .f32) (b2 : Vec F S128 .f32) : FVec F S64x128 .f32 :=
  k0_pay7 (S2 (S1 x w0 b0) w1 b1) w2 b2

/-- Two stores through the left and the right column chunk cover the 64 × 256 scratch. -/
theorem cover_halves (p q : Vec F S64x128 .f32) (y : S64x256.Idx) :
    ∃ pc ∈ ([⟨rHR, p⟩, ⟨rHL, q⟩] : List (View.Piece (Elt F) S64x256 .f32)), y ∈ pc.1.set :=
  View.cover_of_tiled [⟨rHR, p⟩, ⟨rHL, q⟩] S64x128.size (by rfl) y

end Cert.Proof.K

end
-- ==== Proof.K.Body.lean ====
import proofs.«409890_j44813688767073_3_alg».proof.Proof.K.Kit
import proofs.«409890_j44813688767073_3_alg».proof.Proof.K.Out
import Idealize.ShloMosaic.Lib.Pipeline.Value
/-
  The body of the one pallas_call, the pipeline's proof data and the frame run, for any float family.

  * `sound_kernel`: on whole staging buffers holding the seven input blocks, the output's staging buffer and the two
    scratch buffers at anything, the body runs to the end without a fault, leaves the inputs as they were, the output
    buffer at `OUT` of the input blocks and the scratch buffers at something. The body's loads of a scratch or of the
    output buffer before its store read values nothing uses; the whole-scratch loads after the two chunk stores read the
    stores' canonical contents, since the two chunks cover the scratch.
  * `dats`: after a point each input's staging buffer holds its block and the output's holds `OUT` of the blocks; the
    invariant between points is the two scratch buffers at some contents and the generator register at some state.
  * `sound_body`, `body_obligation`: the body at any grid point, from what the pipeline hands it to what it hands back.
  * `run_main`, `frame`: every weakly fair execution of @main terminates without a fault, each staged array at the
    proof data's final contents, every other unscoped buffer as the region found it; so all ten arguments end as launched.
-/

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UU nD τ) ℕ

/-! ## The body's triple -/

/-- A rectangle from the origin has zero offsets. -/
theorem off0_2 : (![0, 0] : Fin 2 → ℕ) = fun _ => 0 := funext fun a => by fin_cases a <;> rfl
theorem off0_1 : (![0] : Fin 1 → ℕ) = fun _ => 0 := funext fun a => by fin_cases a; rfl

/-- One store through the whole 64 × 128 rectangle covers the output's staging buffer. -/
theorem cover_out (w : Vec F S64x128 .f32) (y : S64x128.Idx) :
    ∃ pc ∈ ([⟨Rect.unit (s := S64x128) ![0, 0] S64x128.size inb_S64x128_S64x128_0_0, w⟩] : List (View.Piece (Elt F) S64x128 .f32)), y ∈ pc.1.set :=
  View.cover_of_tiled [⟨Rect.unit (s := S64x128) ![0, 0] S64x128.size inb_S64x128_S64x128_0_0, w⟩] S64x128.size (by rfl) y

theorem sound_kernel (c : Dev nD) (i : grid0.Coords) (arg1 : Memref sig .tc .vmem S64x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S64x128 .f32) (harg8 : arg8.IsWhole) (arg9 : Memref sig .tc .vmem S64x256 .f32) (harg9 : arg9.IsWhole) (arg10 : Memref sig .tc .vmem S64x256 .f32) (harg10 : arg10.IsWhole)
    (x : Vec F S64x256 .f32) (w0 : Vec F S256x256 .f32) (b0 : Vec F S256 .f32) (w1 : Vec F S256x256 .f32) (b1 : Vec F S256 .f32) (w2 : Vec F S256x128 .f32) (b2 : Vec F S128 .f32) (K : PUnit → sProp 𝕄) :
    iprop(owns (c : Thread nD τ) arg1 fullShare x ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2
        ∗ (∃ d, owns (c : Thread nD τ) arg8 fullShare d)
        ∗ (∃ g, arg9.view.loc (c : Thread nD τ) ↦[arg9.view.set]{fullShare} g)
        ∗ (∃ g, arg10.view.loc (c : Thread nD τ) ↦[arg10.view.set]{fullShare} g)
        ∗ (iprop(owns (c : Thread nD τ) arg1 fullShare x ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2
            ∗ owns (c : Thread nD τ) arg8 fullShare (OUT x w0 b0 w1 b1 w2 b2)
            ∗ (∃ g, arg9.view.loc (c : Thread nD τ) ↦[arg9.view.set]{fullShare} g)
            ∗ (∃ g, arg10.view.loc (c : Thread nD τ) ↦[arg10.view.set]{fullShare} g)) -∗ K ⟨⟩))
      ⊢ wp frame (wpE (defs₀ (F := F)) 𝒱₀ c none) Set.univ (cc0__kernel i arg1 harg1 arg2 harg2 arg3 harg3 arg4 harg4 arg5 harg5 arg6 harg6 arg7 harg7 arg8 harg8 arg9 harg9 arg10 harg10) K := by
  sl_unfold [cc0__kernel]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g9, H9⟩, ⟨%g10, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_out _), View.canon_unit_zero off0_2]
    sl_unfold_words
    unfold OUT S2 S1 L2 L1
    simp only [View.readAt_eq_ld, View.readCov_eq_canon_ld _ _ _ (cover_halves _ _), View.ld_unit_zero (S := S64x256) off0_2,
      View.ld_unit_zero (S := S256x128) off0_2, View.ld_unit_zero (S := S128) off0_1]
  isplitl [H9]
  · iexists _; iexact H9
  iexists _; iexact H10

/-! ## The pipeline's proof data -/

variable (m : (ℓ : Loc nD τ sig) → Buf (Elt F) ℓ) (ρ : Dev nD → PrngReg)

/-- The proof data of the one pipeline on core c: the arrays as the region finds them; after the body at point t each
    input's buffer at its block and the output's at `OUT` of the input blocks; between points the scratch buffers at
    anything and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUT (iblk m c 0 t) (iblk m c 1 t) (iblk m c 2 t) (iblk m c 3 t) (iblk m c 4 t) (iblk m c 5 t) (iblk m c 6 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = OUT (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- A scratch buffer as the invariant holds it and as the body's run names it: one points-to. -/
theorem scr_eq0 (c : Dev nD) (f : Buf (Elt F) ((c : Thread nD τ).loc cc0_scratch0)) :
    ((Memref.whole cc0_scratch0 : Memref sig .tc .vmem S64x256 .f32).view.loc (c : Thread nD τ)
        ↦[(Memref.whole cc0_scratch0 : Memref sig .tc .vmem S64x256 .f32).view.set]{fullShare} f : sProp 𝕄)
      = ((c : Thread nD τ).loc cc0_scratch0) ↦{fullShare} f := by
  simp only [Memref.view_whole, View.set_whole]
theorem scr_eq1 (c : Dev nD) (f : Buf (Elt F) ((c : Thread nD τ).loc cc0_scratch1)) :
    ((Memref.whole cc0_scratch1 : Memref sig .tc .vmem S64x256 .f32).view.loc (c : Thread nD τ)
        ↦[(Memref.whole cc0_scratch1 : Memref sig .tc .vmem S64x256 .f32).view.set]{fullShare} f : sProp 𝕄)
      = ((c : Thread nD τ).loc cc0_scratch1) ↦{fullShare} f := by
  simp only [Memref.view_whole, View.set_whole]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, the invariant yields the two scratch buffers and takes
    them back, so `sound_kernel` applies; what the core owes and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show (dats m 0 c).Φ t.castSucc = ΦA spec0 c from rfl]
  unfold ΦA
  rw [scopedRest0_eq]
  iintro ⟨⟨⟨⟨%g9, HS9⟩, ⟨%g10, HS10⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c _ _ _ _ _ _ _ _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS9]; · iexists g9; rw [scr_eq0]; iexact HS9
  isplitl [HS10]; · iexists g10; rw [scr_eq1]; iexact HS10
  iintro ⟨H0, H1, H2, H3, H4, H5, H6, H7, ⟨%g9', HS9⟩, ⟨%g10', HS10⟩⟩
  isplitl [HS9 HS10 HR]
  · isplitl [HS9 HS10]
    · isplitl [HS9]; · iexists g9'; rw [← scr_eq0]; iexact HS9
      iexists g10'; rw [← scr_eq1]; iexact HS10
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every staged array at what the library computes from the proof data and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every weakly fair execution terminates without a fault and leaves the ten arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The same run with the result named: beside the ten arguments as launched, the result array ends at the contents the
    library computes from the proof data — the output blocks written back one after the other. -/
theorem run_value : θ_run defs (onTc (τ := τ) (main (F := F))) ⟨m, fun _ => 0, ρ⟩ (fun r => ∀ c : Dev nD,
      r.2.mem ((c.tc : Thread nD τ).loc main_v36) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Proof.K

end
-- ==== Proof.KI.Kit.lean ====
import proofs.«409890_j44813688767073_3_alg».proof.Proof.Gen.KernelIdeal.Launch
import proofs.«409890_j44813688767073_3_alg».proof.Proof.Gen.KernelIdeal.Points
import Idealize.ShloMosaic.Lib.Pipeline.FrameBody
import Idealize.ShloMosaic.Lib.Ring
import Idealize.ShloMosaic.Lib.Tactic
/-
  The launch side of the one pallas_call, stated once for any float family.

  * `V`: what core c's buffers hold when the region is entered — the launch contents carried through the
    ninety-nine host operations that select the three weight matrices (seven stretches: @main's own lines and the
    three inlined selection functions) —, and `hmain`: @main is those stretches followed by the region.
  * `V_main_argK`: none of those operations writes an argument, so the region finds each argument as launched.
  * `iblk`: window w's block at grid point t, read off the array the region finds.
  * `beforeW_of`: an input window's staging buffer holds its block at every point, fetched there or not — the
    batch rows move with the point, the six weight and bias windows stay at block 0 and are fetched once.
  * `frame_of`: a run that ends with every staged array at the proof data's final contents and every other
    unscoped buffer as the region found it leaves all ten arguments as launched.
-/

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The user algebra the frame run is read at, and the certificate's variants: none. -/
abbrev UU (nD : Nat) (τ : Topo) : Type := UR sig nD τ
abbrev 𝒱₀ : Variants := Variants.none

/-! ## @main up to the region -/

/-- Core c's TensorCore buffers when the region is entered: the launch contents after the seven host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the seven stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data whose
    array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not, for any proof data whose
    array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not, for any proof data whose
    array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — every staged
    array at the proof data's final contents, every other unscoped buffer as the region found it — leaves all ten
    arguments as launched: a staged input keeps its contents through the run, an argument no window stages is an
    unscoped buffer the region does not touch, and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.Proof.KI

end
-- ==== Proof.KI.Out.lean ====
import proofs.«409890_j44813688767073_3_alg».proof.Proof.Gen.KernelIdeal.Skeleton
import Idealize.ShloMosaic.Lib.Pipeline.FrameBody
import Idealize.ShloMosaic.Lib.Pipeline.Value
/-
  What one grid point computes, as a function of the seven input blocks, for any float family.

  The body works on 64 batch rows x. Each layer's 256 (or 128) output units are produced 128 at a time: a chunk takes
  the columns [0,128) or [128,256) of the staged transposed weights and of the bias, multiplies every row entry by every
  weight of the chunk, applies tanh (hidden layers), sums over the 256 inputs and adds the bias. The two chunks of a
  hidden layer are stored side by side into a 64 × 256 scratch, which the next layer reads back whole.

  * `S1 x w0 b0`: the first scratch after its two stores — the canonical contents of the two column chunks;
  * `S2 h w1 b1`: the second scratch, the same over the first scratch's contents h;
  * `OUT`: the output block, the last layer's single chunk over the second scratch.
-/

noncomputable section

namespace Cert.Proof.KI

open Cert.KernelIdeal Cert.KernelIdeal.Gen
open Idealize.ShloMosaic

variable {F : FTy → Type} [FloatOps F]

/-- The column chunks the body loads and stores through: of a 256 × 256 weight buffer, of a 256-entry bias buffer, of a
    64 × 256 scratch — left half (columns from 0) and right half (columns from 128). -/
abbrev rWL : Rect S256x256 := Rect.unit (s := S256x256) ![0, 0] S256x128.size inb_S256x256_S256x128_0_0
abbrev rWR : Rect S256x256 := Rect.unit (s := S256x256) ![0, 128] S256x128.size inb_S256x256_S256x128_0_128
abbrev rBL : Rect S256 := Rect.unit (s := S256) ![0] S128.size inb_S256_S128_0
abbrev rBR : Rect S256 := Rect.unit (s := S256) ![128] S128.size inb_S256_S128_128
abbrev rHL : Rect S64x256 := Rect.unit (s := S64x256) ![0, 0] S64x128.size inb_S64x256_S64x128_0_0
abbrev rHR : Rect S64x256 := Rect.unit (s := S64x256) ![0, 128] S64x128.size inb_S64x256_S64x128_0_128

/-- The first hidden layer's two stores, the later one first: the right chunk, then the left chunk. -/
def L1 (x : Vec F S64x256 .f32) (w0 : Vec F S256x256 .f32) (b0 : Vec F S256 .f32) : List (View.Piece (Elt F) S64x256 .f32) :=
  [⟨rHR, k0_pay2 x (View.ld w0 rWR) (View.ld b0 rBR)⟩, ⟨rHL, k0_pay1 x (View.ld w0 rWL) (View.ld b0 rBL)⟩]

/-- The first scratch after them: the first hidden layer's 64 × 256 activations. -/
def S1 (x : Vec F S64x256 .f32) (w0 : Vec F S256x256 .f32) (b0 : Vec F S256 .f32) : Vec F S64x256 .f32 :=
  View.canon (L1 x w0 b0)

/-- The second hidden layer's two stores over the activations h, the later one first. -/
def L2 (h : Vec F S64x256 .f32) (w1 : Vec F S256x256 .f32) (b1 : Vec F S256 .f32) : List (View.Piece (Elt F) S64x256 .f32) :=
  [⟨rHR, k0_pay6 h (View.ld w1 rWR) (View.ld b1 rBR)⟩, ⟨rHL, k0_pay5 (k0_pay3 (View.ld w1 rWL)) (View.ld b1 rBL) (k0_pay4 h)⟩]

/-- The second scratch after them. -/
def S2 (h : Vec F S64x256 .f32) (w1 : Vec F S256x256 .f32) (b1 : Vec F S256 .f32) : Vec F S64x256 .f32 :=
  View.canon (L2 h w1 b1)

/-- The output block of a grid point from its seven input blocks. -/
def OUT (x : Vec F S64x256 .f32) (w0 : Vec F S256x256 .f32) (b0 : Vec F S256 .f32) (w1 : Vec F S256x256 .f32) (b1 : Vec F S256 .f32)
    (w2 : Vec F S256x128 .f32) (b2 : Vec F S128 .f32) : FVec F S64x128 .f32 :=
  k0_pay7 (S2 (S1 x w0 b0) w1 b1) w2 b2

/-- Two stores through the left and the right column chunk cover the 64 × 256 scratch. -/
theorem cover_halves (p q : Vec F S64x128 .f32) (y : S64x256.Idx) :
    ∃ pc ∈ ([⟨rHR, p⟩, ⟨rHL, q⟩] : List (View.Piece (Elt F) S64x256 .f32)), y ∈ pc.1.set :=
  View.cover_of_tiled [⟨rHR, p⟩, ⟨rHL, q⟩] S64x128.size (by rfl) y

end Cert.Proof.KI

end
-- ==== Proof.KI.Body.lean ====
import proofs.«409890_j44813688767073_3_alg».proof.Proof.KI.Kit
import proofs.«409890_j44813688767073_3_alg».proof.Proof.KI.Out
import Idealize.ShloMosaic.Lib.Pipeline.Value
/-
  The body of the one pallas_call, the pipeline's proof data and the frame run, for any float family.

  * `sound_kernel`: on whole staging buffers holding the seven input blocks, the output's staging buffer and the two
    scratch buffers at anything, the body runs to the end without a fault, leaves the inputs as they were, the output
    buffer at `OUT` of the input blocks and the scratch buffers at something. The body's loads of a scratch or of the
    output buffer before its store read values nothing uses; the whole-scratch loads after the two chunk stores read the
    stores' canonical contents, since the two chunks cover the scratch.
  * `dats`: after a point each input's staging buffer holds its block and the output's holds `OUT` of the blocks; the
    invariant between points is the two scratch buffers at some contents and the generator register at some state.
  * `sound_body`, `body_obligation`: the body at any grid point, from what the pipeline hands it to what it hands back.
  * `run_main`, `frame`: every weakly fair execution of @main terminates without a fault, each staged array at the
    proof data's final contents, every other unscoped buffer as the region found it; so all ten arguments end as launched.
-/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UU nD τ) ℕ

/-! ## The body's triple -/

/-- A rectangle from the origin has zero offsets. -/
theorem off0_2 : (![0, 0] : Fin 2 → ℕ) = fun _ => 0 := funext fun a => by fin_cases a <;> rfl
theorem off0_1 : (![0] : Fin 1 → ℕ) = fun _ => 0 := funext fun a => by fin_cases a; rfl

/-- One store through the whole 64 × 128 rectangle covers the output's staging buffer. -/
theorem cover_out (w : Vec F S64x128 .f32) (y : S64x128.Idx) :
    ∃ pc ∈ ([⟨Rect.unit (s := S64x128) ![0, 0] S64x128.size inb_S64x128_S64x128_0_0, w⟩] : List (View.Piece (Elt F) S64x128 .f32)), y ∈ pc.1.set :=
  View.cover_of_tiled [⟨Rect.unit (s := S64x128) ![0, 0] S64x128.size inb_S64x128_S64x128_0_0, w⟩] S64x128.size (by rfl) y

theorem sound_kernel (c : Dev nD) (i : grid0.Coords) (arg1 : Memref sig .tc .vmem S64x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S64x128 .f32) (harg8 : arg8.IsWhole) (arg9 : Memref sig .tc .vmem S64x256 .f32) (harg9 : arg9.IsWhole) (arg10 : Memref sig .tc .vmem S64x256 .f32) (harg10 : arg10.IsWhole)
    (x : Vec F S64x256 .f32) (w0 : Vec F S256x256 .f32) (b0 : Vec F S256 .f32) (w1 : Vec F S256x256 .f32) (b1 : Vec F S256 .f32) (w2 : Vec F S256x128 .f32) (b2 : Vec F S128 .f32) (K : PUnit → sProp 𝕄) :
    iprop(owns (c : Thread nD τ) arg1 fullShare x ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2
        ∗ (∃ d, owns (c : Thread nD τ) arg8 fullShare d)
        ∗ (∃ g, arg9.view.loc (c : Thread nD τ) ↦[arg9.view.set]{fullShare} g)
        ∗ (∃ g, arg10.view.loc (c : Thread nD τ) ↦[arg10.view.set]{fullShare} g)
        ∗ (iprop(owns (c : Thread nD τ) arg1 fullShare x ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2
            ∗ owns (c : Thread nD τ) arg8 fullShare (OUT x w0 b0 w1 b1 w2 b2)
            ∗ (∃ g, arg9.view.loc (c : Thread nD τ) ↦[arg9.view.set]{fullShare} g)
            ∗ (∃ g, arg10.view.loc (c : Thread nD τ) ↦[arg10.view.set]{fullShare} g)) -∗ K ⟨⟩))
      ⊢ wp frame (wpE (defs₀ (F := F)) 𝒱₀ c none) Set.univ (cc0__kernel i arg1 harg1 arg2 harg2 arg3 harg3 arg4 harg4 arg5 harg5 arg6 harg6 arg7 harg7 arg8 harg8 arg9 harg9 arg10 harg10) K := by
  sl_unfold [cc0__kernel]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g9, H9⟩, ⟨%g10, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_out _), View.canon_unit_zero off0_2]
    sl_unfold_words
    unfold OUT S2 S1 L2 L1
    simp only [View.readAt_eq_ld, View.readCov_eq_canon_ld _ _ _ (cover_halves _ _), View.ld_unit_zero (S := S64x256) off0_2,
      View.ld_unit_zero (S := S256x128) off0_2, View.ld_unit_zero (S := S128) off0_1]
  isplitl [H9]
  · iexists _; iexact H9
  iexists _; iexact H10

/-! ## The pipeline's proof data -/

variable (m : (ℓ : Loc nD τ sig) → Buf (Elt F) ℓ) (ρ : Dev nD → PrngReg)

/-- The proof data of the one pipeline on core c: the arrays as the region finds them; after the body at point t each
    input's buffer at its block and the output's at `OUT` of the input blocks; between points the scratch buffers at
    anything and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUT (iblk m c 0 t) (iblk m c 1 t) (iblk m c 2 t) (iblk m c 3 t) (iblk m c 4 t) (iblk m c 5 t) (iblk m c 6 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = OUT (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- A scratch buffer as the invariant holds it and as the body's run names it: one points-to. -/
theorem scr_eq0 (c : Dev nD) (f : Buf (Elt F) ((c : Thread nD τ).loc cc0_scratch0)) :
    ((Memref.whole cc0_scratch0 : Memref sig .tc .vmem S64x256 .f32).view.loc (c : Thread nD τ)
        ↦[(Memref.whole cc0_scratch0 : Memref sig .tc .vmem S64x256 .f32).view.set]{fullShare} f : sProp 𝕄)
      = ((c : Thread nD τ).loc cc0_scratch0) ↦{fullShare} f := by
  simp only [Memref.view_whole, View.set_whole]
theorem scr_eq1 (c : Dev nD) (f : Buf (Elt F) ((c : Thread nD τ).loc cc0_scratch1)) :
    ((Memref.whole cc0_scratch1 : Memref sig .tc .vmem S64x256 .f32).view.loc (c : Thread nD τ)
        ↦[(Memref.whole cc0_scratch1 : Memref sig .tc .vmem S64x256 .f32).view.set]{fullShare} f : sProp 𝕄)
      = ((c : Thread nD τ).loc cc0_scratch1) ↦{fullShare} f := by
  simp only [Memref.view_whole, View.set_whole]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, the invariant yields the two scratch buffers and takes
    them back, so `sound_kernel` applies; what the core owes and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show (dats m 0 c).Φ t.castSucc = ΦA spec0 c from rfl]
  unfold ΦA
  rw [scopedRest0_eq]
  iintro ⟨⟨⟨⟨%g9, HS9⟩, ⟨%g10, HS10⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c _ _ _ _ _ _ _ _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS9]; · iexists g9; rw [scr_eq0]; iexact HS9
  isplitl [HS10]; · iexists g10; rw [scr_eq1]; iexact HS10
  iintro ⟨H0, H1, H2, H3, H4, H5, H6, H7, ⟨%g9', HS9⟩, ⟨%g10', HS10⟩⟩
  isplitl [HS9 HS10 HR]
  · isplitl [HS9 HS10]
    · isplitl [HS9]; · iexists g9'; rw [← scr_eq0]; iexact HS9
      iexists g10'; rw [← scr_eq1]; iexact HS10
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every staged array at what the library computes from the proof data and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every weakly fair execution terminates without a fault and leaves the ten arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The same run with the result named: beside the ten arguments as launched, the result array ends at the contents the
    library computes from the proof data — the output blocks written back one after the other. -/
theorem run_value : θ_run defs (onTc (τ := τ) (main (F := F))) ⟨m, fun _ => 0, ρ⟩ (fun r => ∀ c : Dev nD,
      r.2.mem ((c.tc : Thread nD τ).loc main_v36) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Proof.KI

end
-- ==== Proof.Spec.lean ====
import Idealize.ShloMosaic.PureOps.Ideal
import Idealize.ShloMosaic.Lib.ValueIdx
/-
  What the network computes, one batch row at a time, on the extended reals.

  A layer takes a row h of 256 numbers, a row of 256 selected weights per output unit and one bias per output unit;
  output unit k is  (∑ i, g (h i · we k i)) + b k,  with g = tanh on the two hidden layers and g the identity on the
  last. The three layers are chained: 256 → 256 → 256 → 128. Nothing here depends on how many rows a block or an array
  has, on how the weights are laid out in memory (the weight of output unit k at input i is an argument `A k i`), or
  on the order in which the 256 products of a unit are added: the sum is over a commutative monoid.
-/

noncomputable section

namespace Cert.Spec

open Idealize.ShloMosaic Idealize.ShloMosaic.ValueIdx

/-- One output unit of one layer on one row: the sum over the 256 inputs of g (h i · we i), plus the bias. -/
def unit (g : EReal → EReal) (h we : Fin 256 → EReal) (b : EReal) : EReal :=
  (∑ i : Fin 256, g (h i * we i)) + b

/-- A hidden layer on one row: 256 tanh units. -/
def hidden (h : Fin 256 → EReal) (A : Fin 256 → Fin 256 → EReal) (b : Fin 256 → EReal) : Fin 256 → EReal :=
  fun k => unit Ideal.tanh h (A k) (b k)

/-- The whole network on one row: two hidden layers, then 128 linear units. -/
def net (x : Fin 256 → EReal) (A0 A1 : Fin 256 → Fin 256 → EReal) (A2 : Fin 128 → Fin 256 → EReal)
    (b0 b1 : Fin 256 → EReal) (b2 : Fin 128 → EReal) : Fin 128 → EReal :=
  fun o => unit id (hidden (hidden x A0 b0) A1 b1) (A2 o) (b2 o)

/-- The network on an array of R rows: entry (r, o) is the network's output unit o on row r of X. The selected
    weights are given as arrays in (output unit, input) order. -/
def G {R : ℕ} (X : (⟨2, ![R, 256]⟩ : Shape).Idx → EReal)
    (W0 W1 : (⟨2, ![256, 256]⟩ : Shape).Idx → EReal) (W2 : (⟨2, ![128, 256]⟩ : Shape).Idx → EReal)
    (B0 B1 : (⟨1, ![256]⟩ : Shape).Idx → EReal) (B2 : (⟨1, ![128]⟩ : Shape).Idx → EReal) :
    (⟨2, ![R, 128]⟩ : Shape).Idx → EReal :=
  fun j => net (fun l => X (ix2 (j 0) l)) (fun k l => W0 (ix2 k l)) (fun k l => W1 (ix2 k l)) (fun o l => W2 (ix2 o l))
    (fun k => B0 (ix1 k)) (fun k => B1 (ix1 k)) (fun o => B2 (ix1 o)) (j 1)

end Cert.Spec

end
-- ==== Proof.LibChunks.lean ====
/-
  Column chunks of a two-axis buffer. A store through the unit-stride rectangle of all R rows and the c columns from
  column o on ("a column chunk") is met by the canonical contents of a list of stores in one of two ways: at an index
  inside the chunk the store's payload is read at the index's local coordinates; at an index outside it the store is
  passed over. A load through a column chunk reads its box index (r, jj) at (r, o + jj).
-/
import Idealize.ShloMosaic.Lib.Pipeline.FrameBody
import Idealize.ShloMosaic.Lib.ValueIdx

noncomputable section

namespace Idealize.ShloMosaic.ColumnChunks

open Idealize.ShloMosaic Idealize.ShloMosaic.ValueIdx

variable {Val : EltTy → Type} [∀ e, Nonempty (Val e)] {e : EltTy} {R C c o : ℕ}

/-- The column chunk's own index (r, jj) sits at (r, o + jj) of the buffer. -/
theorem emb_chunk (inb : ∀ a, (![0, o] : Fin 2 → ℕ) a + (![R, c] : Fin 2 → ℕ) a ≤ (⟨2, ![R, C]⟩ : Shape).size a)
    (r : Fin R) (jj : Fin c) (h : o + jj.val < C) :
    (Rect.unit (s := ⟨2, ![R, C]⟩) ![0, o] ![R, c] inb).emb (ix2 r jj) = ix2 r ⟨o + jj.val, h⟩ := by
  funext a
  apply Fin.ext
  match a with
  | ⟨0, _⟩ => show 0 + 1 * r.val = r.val; omega
  | ⟨1, _⟩ => show o + 1 * jj.val = o + jj.val; omega

/-- A load box through a column chunk reads its index (r, jj) at (r, o + jj) of the buffer. -/
theorem idx_chunk (inb : ∀ a, (![0, o] : Fin 2 → ℕ) a + (![R, c] : Fin 2 → ℕ) a ≤ (⟨2, ![R, C]⟩ : Shape).size a)
    (r : Fin R) (jj : Fin c) (h : o + jj.val < C) :
    (Rect.unit (s := ⟨2, ![R, C]⟩) ![0, o] ![R, c] inb).toLoadRect.idx (ix2 r jj) = ix2 r ⟨o + jj.val, h⟩ := by
  funext a
  apply Fin.ext
  match a with
  | ⟨0, _⟩ => show 0 + 1 * r.val = r.val; omega
  | ⟨1, _⟩ => show o + 1 * jj.val = o + jj.val; omega

/-- INSIDE THE CHUNK: the canonical contents of a list of stores whose last is through a column chunk, at column
    o + jj of row r, are that store's payload at (r, jj). -/
theorem canon_cons_chunk_hit (inb : ∀ a, (![0, o] : Fin 2 → ℕ) a + (![R, c] : Fin 2 → ℕ) a ≤ (⟨2, ![R, C]⟩ : Shape).size a)
    (w : (Rect.unit (s := ⟨2, ![R, C]⟩) ![0, o] ![R, c] inb).shape.Idx → Val e) (L : List (View.Piece Val ⟨2, ![R, C]⟩ e))
    (r : Fin R) (jj : Fin c) (h : o + jj.val < C) :
    View.canon ((⟨Rect.unit (s := ⟨2, ![R, C]⟩) ![0, o] ![R, c] inb, w⟩ : View.Piece Val ⟨2, ![R, C]⟩ e) :: L) (ix2 r ⟨o + jj.val, h⟩)
      = w (ix2 r jj) := by
  rw [← emb_chunk inb r jj h]
  exact View.canon_cons_emb _ w L (ix2 r jj)

/-- OUTSIDE THE CHUNK: at a column before o or from o + c on, the store through the chunk is passed over. -/
theorem canon_cons_chunk_miss (inb : ∀ a, (![0, o] : Fin 2 → ℕ) a + (![R, c] : Fin 2 → ℕ) a ≤ (⟨2, ![R, C]⟩ : Shape).size a)
    (w : (Rect.unit (s := ⟨2, ![R, C]⟩) ![0, o] ![R, c] inb).shape.Idx → Val e) (L : List (View.Piece Val ⟨2, ![R, C]⟩ e))
    (r : Fin R) (j : Fin C) (h : j.val < o ∨ o + c ≤ j.val) :
    View.canon ((⟨Rect.unit (s := ⟨2, ![R, C]⟩) ![0, o] ![R, c] inb, w⟩ : View.Piece Val ⟨2, ![R, C]⟩ e) :: L) (ix2 r j)
      = View.canon L (ix2 r j) := by
  refine View.canon_cons_of_not_mem _ L fun hm => ?_
  have h1 : o ≤ j.val ∧ j.val < o + c := (Rect.mem_set_unit (inb := inb)).mp hm 1
  omega

end Idealize.ShloMosaic.ColumnChunks

end
-- ==== Proof.KI.Value.lean ====
import proofs.«409890_j44813688767073_3_alg».proof.Proof.KI.Out
import proofs.«409890_j44813688767073_3_alg».proof.Proof.Spec
import proofs.«409890_j44813688767073_3_alg».proof.Proof.LibChunks
import Idealize.ShloMosaic.Lib.ValueIdx
import Idealize.ShloMosaic.Lib.ValueLayout
import Idealize.ShloMosaic.Lib.Pipeline.Value
import Idealize.ShloMosaic.PureOps.Ideal.Laws
/-
  The output block of a grid point, read at an index on the extended reals: entry (r, o) is the network's output unit o
  on row r of the point's 64 batch rows, the staged weights being the transposes (input, output unit) of the selected
  weights.
-/

noncomputable section

namespace Cert.Proof.KI

open Cert.KernelIdeal Cert.KernelIdeal.Gen
open Idealize.ShloMosaic Idealize.ShloMosaic.ValueIdx

/-! ## Layout operations of a chunk at an index -/

/-- The reduced index (r, q) with the coordinate i put back on the middle axis is (r, i, q). -/
theorem lift_mid (r : Fin 64) (q : Fin 128) (i : Fin 256) :
    reduces_S64x256x128_S64x128.lift (ix2 r q) i = ix3 r i q := by
  funext a
  apply Fin.ext
  match a with
  | ⟨0, _⟩ => rfl
  | ⟨1, _⟩ => rfl
  | ⟨2, _⟩ => rfl

/-- A row entry repeated along a new last axis: at (r, i, q) it is the entry (r, i). -/
theorem rowsBroadcast_apply (h : Vec Ideal S64x256 .f32) (r : Fin 64) (i : Fin 256) (q : Fin 128) :
    broadcastTo S64x256x128 (shapeCast S64x256x1 h shapeCasts_S64x256_S64x256x1) broadcasts_S64x256x1_S64x256x128 (ix3 r i q)
      = h (ix2 r i) := by
  refine (broadcastTo_apply _ broadcasts_S64x256x1_S64x256x128 (ix3 r i q) (ix3 r i (0 : Fin 1)) fun a => ?_).trans ?_
  · match a with
    | ⟨0, _⟩ => rfl
    | ⟨1, _⟩ => rfl
    | ⟨2, _⟩ => rfl
  · refine shapeCast_apply h shapeCasts_S64x256_S64x256x1 _ (ix2 r i) ?_
    rw [Shape.rowMajor_val_three, Shape.rowMajor_val_two]
    show r.val * 256 + i.val = (r.val * 256 + i.val) * 1 + 0
    omega

/-- A weight chunk repeated along a new first axis: at (r, i, q) it is the weight (i, q). -/
theorem weightsBroadcast_apply (we : FVec Ideal S256x128 .f32) (r : Fin 64) (i : Fin 256) (q : Fin 128) :
    broadcastTo S64x256x128 (shapeCast S1x256x128 we shapeCasts_S256x128_S1x256x128) broadcasts_S1x256x128_S64x256x128 (ix3 r i q)
      = we (ix2 i q) := by
  refine (broadcastTo_apply _ broadcasts_S1x256x128_S64x256x128 (ix3 r i q) (ix3 (0 : Fin 1) i q) fun a => ?_).trans ?_
  · match a with
    | ⟨0, _⟩ => rfl
    | ⟨1, _⟩ => rfl
    | ⟨2, _⟩ => rfl
  · exact shapeCast_ab_1ab_apply we shapeCasts_S256x128_S1x256x128 0 i q

/-- The hyperbolic tangent of a vector, read at an index. -/
theorem tanh_apply {s : Shape} (X : FVec Ideal s .f32) (j : s.Idx) : tanh X j = Ideal.tanh (X j) := rfl

/-! ## A chunk's 128 units at an index -/

/-- A hidden layer's chunk at (r, q): the sum over the 256 inputs of tanh (h (r, i) · we (i, q)), plus the bias q. -/
theorem pay1_apply (h : Vec Ideal S64x256 .f32) (we : Vec Ideal S256x128 .f32) (b : Vec Ideal S128 .f32) (r : Fin 64) (q : Fin 128) :
    k0_pay1 (F := Ideal) h we b (ix2 r q) = (∑ i : Fin 256, Ideal.tanh (h (ix2 r i) * we (ix2 i q))) + b (ix1 q) := by
  unfold k0_pay1
  rw [shapeCast_self, shapeCast_self]
  rw [addf_apply, broadcastTo_1b_ab_apply, shapeCast_a_1a_apply]
  congr 1
  refine (Ideal.multiReduction_add_single _ _ reduces_S64x256x128_S64x128 _ _ (ix2 r q)).trans ?_
  refine Finset.sum_congr (s₁ := (Finset.univ : Finset (Fin 256))) rfl fun (i : Fin 256) _ => ?_
  rw [lift_mid r q i, tanh_apply, mulf_apply, rowsBroadcast_apply h r i q, weightsBroadcast_apply we r i q]

/-- The same chunk, as the first hidden layer's right half computes it. -/
theorem pay2_apply (h : Vec Ideal S64x256 .f32) (we : Vec Ideal S256x128 .f32) (b : Vec Ideal S128 .f32) (r : Fin 64) (q : Fin 128) :
    k0_pay2 (F := Ideal) h we b (ix2 r q) = (∑ i : Fin 256, Ideal.tanh (h (ix2 r i) * we (ix2 i q))) + b (ix1 q) :=
  pay1_apply h we b r q

/-- The same chunk, as the second hidden layer's right half computes it. -/
theorem pay6_apply (h : Vec Ideal S64x256 .f32) (we : Vec Ideal S256x128 .f32) (b : Vec Ideal S128 .f32) (r : Fin 64) (q : Fin 128) :
    k0_pay6 (F := Ideal) h we b (ix2 r q) = (∑ i : Fin 256, Ideal.tanh (h (ix2 r i) * we (ix2 i q))) + b (ix1 q) :=
  pay1_apply h we b r q

/-- The same chunk with the two shape casts of its operands taken beforehand, as the second hidden layer's left half computes it. -/
theorem pay5_apply (h : Vec Ideal S64x256 .f32) (we : Vec Ideal S256x128 .f32) (b : Vec Ideal S128 .f32) (r : Fin 64) (q : Fin 128) :
    k0_pay5 (F := Ideal) (k0_pay3 we) b (k0_pay4 h) (ix2 r q) = (∑ i : Fin 256, Ideal.tanh (h (ix2 r i) * we (ix2 i q))) + b (ix1 q) :=
  pay1_apply h we b r q

/-- The last layer's chunk at (r, q): the sum over the 256 inputs of h (r, i) · we (i, q), plus the bias q. -/
theorem pay7_apply (h : Vec Ideal S64x256 .f32) (we : Vec Ideal S256x128 .f32) (b : Vec Ideal S128 .f32) (r : Fin 64) (q : Fin 128) :
    k0_pay7 (F := Ideal) h we b (ix2 r q) = (∑ i : Fin 256, h (ix2 r i) * we (ix2 i q)) + b (ix1 q) := by
  unfold k0_pay7
  rw [shapeCast_self]
  rw [addf_apply, broadcastTo_1b_ab_apply, shapeCast_a_1a_apply]
  congr 1
  refine (Ideal.multiReduction_add_single _ _ reduces_S64x256x128_S64x128 _ _ (ix2 r q)).trans ?_
  refine Finset.sum_congr (s₁ := (Finset.univ : Finset (Fin 256))) rfl fun (i : Fin 256) _ => ?_
  rw [lift_mid r q i, mulf_apply, rowsBroadcast_apply h r i q, weightsBroadcast_apply we r i q]

/-! ## The scratch read back: two column chunks side by side -/

/-- Columns [0, 128) of the scratch hold the earlier store's payload. -/
theorem canon_halves_left (p q : Vec Ideal S64x128 .f32) (r : Fin 64) (jj : Fin 128) (hj : jj.val < 256) :
    View.canon ([⟨rHR, p⟩, ⟨rHL, q⟩] : List (View.Piece (Elt Ideal) S64x256 .f32)) (ix2 r ⟨jj.val, hj⟩) = q (ix2 r jj) := by
  refine (ColumnChunks.canon_cons_chunk_miss (R := 64) (C := 256) (c := 128) (o := 128) inb_S64x256_S64x128_0_128 p _ r
    ⟨jj.val, hj⟩ (Or.inl jj.isLt)).trans ?_
  have e : (⟨jj.val, hj⟩ : Fin 256) = ⟨0 + jj.val, by omega⟩ := Fin.ext (Nat.zero_add _).symm
  rw [e]
  exact ColumnChunks.canon_cons_chunk_hit (R := 64) (C := 256) (c := 128) (o := 0) inb_S64x256_S64x128_0_0 q [] r jj _

/-- Columns [128, 256) of the scratch hold the later store's payload. -/
theorem canon_halves_right (p q : Vec Ideal S64x128 .f32) (r : Fin 64) (jj : Fin 128) (hj : 128 + jj.val < 256) :
    View.canon ([⟨rHR, p⟩, ⟨rHL, q⟩] : List (View.Piece (Elt Ideal) S64x256 .f32)) (ix2 r ⟨128 + jj.val, hj⟩) = p (ix2 r jj) :=
  ColumnChunks.canon_cons_chunk_hit (R := 64) (C := 256) (c := 128) (o := 128) inb_S64x256_S64x128_0_128 p _ r jj hj

/-- The left weight chunk at (i, jj) is the weight (i, jj). -/
theorem ld_WL (w : Vec Ideal S256x256 .f32) (i : Fin 256) (jj : Fin 128) (hj : jj.val < 256) :
    View.ld w rWL (ix2 i jj) = w (ix2 i ⟨jj.val, hj⟩) := by
  show w (rWL.toLoadRect.idx (ix2 i jj)) = _
  rw [ColumnChunks.idx_chunk (R := 256) (C := 256) (c := 128) (o := 0) inb_S256x256_S256x128_0_0 i jj (by omega)]
  exact congrArg (fun c => w (ix2 i c)) (Fin.ext (Nat.zero_add _))

/-- The right weight chunk at (i, jj) is the weight (i, 128 + jj). -/
theorem ld_WR (w : Vec Ideal S256x256 .f32) (i : Fin 256) (jj : Fin 128) (hj : 128 + jj.val < 256) :
    View.ld w rWR (ix2 i jj) = w (ix2 i ⟨128 + jj.val, hj⟩) := by
  show w (rWR.toLoadRect.idx (ix2 i jj)) = _
  rw [ColumnChunks.idx_chunk (R := 256) (C := 256) (c := 128) (o := 128) inb_S256x256_S256x128_0_128 i jj hj]

/-- The left bias chunk at jj is the bias jj. -/
theorem ld_BL (b : Vec Ideal S256 .f32) (jj : Fin 128) (hj : jj.val < 256) :
    View.ld b rBL (ix1 jj) = b (ix1 ⟨jj.val, hj⟩) := by
  show b (rBL.toLoadRect.idx (ix1 jj)) = _
  refine congrArg b (funext fun a => Fin.ext ?_)
  match a with
  | ⟨0, _⟩ => show 0 + 1 * jj.val = jj.val; omega

/-- The right bias chunk at jj is the bias 128 + jj. -/
theorem ld_BR (b : Vec Ideal S256 .f32) (jj : Fin 128) (hj : 128 + jj.val < 256) :
    View.ld b rBR (ix1 jj) = b (ix1 ⟨128 + jj.val, hj⟩) := by
  show b (rBR.toLoadRect.idx (ix1 jj)) = _
  refine congrArg b (funext fun a => Fin.ext ?_)
  match a with
  | ⟨0, _⟩ => show 128 + 1 * jj.val = 128 + jj.val; omega

/-- A column of the 256 is in the left half or in the right half. -/
theorem col_cases (k : Fin 256) :
    (∃ (jj : Fin 128) (hj : jj.val < 256), k = ⟨jj.val, hj⟩) ∨ (∃ (jj : Fin 128) (hj : 128 + jj.val < 256), k = ⟨128 + jj.val, hj⟩) := by
  by_cases hk : k.val < 128
  · exact Or.inl ⟨⟨k.val, hk⟩, k.isLt, rfl⟩
  · exact Or.inr ⟨⟨k.val - 128, by omega⟩, by show 128 + (k.val - 128) < 256; omega,
      Fin.ext (by show k.val = 128 + (k.val - 128); omega)⟩

/-- A hidden layer held as two column chunks. If the chunk stored through the left half is, at (r, jj), the tanh unit
    over the left weight and bias chunks, and the one stored through the right half the same over the right chunks,
    the scratch at (r, k) is the hidden layer's unit k on row r, for every k of the 256. -/
theorem hidden_of_halves (h : Vec Ideal S64x256 .f32) (w : Vec Ideal S256x256 .f32) (b : Vec Ideal S256 .f32)
    (p q : Vec Ideal S64x128 .f32)
    (hq : ∀ (r : Fin 64) (jj : Fin 128),
      q (ix2 r jj) = (∑ i : Fin 256, Ideal.tanh (h (ix2 r i) * View.ld w rWL (ix2 i jj))) + View.ld b rBL (ix1 jj))
    (hp : ∀ (r : Fin 64) (jj : Fin 128),
      p (ix2 r jj) = (∑ i : Fin 256, Ideal.tanh (h (ix2 r i) * View.ld w rWR (ix2 i jj))) + View.ld b rBR (ix1 jj))
    (r : Fin 64) (k : Fin 256) :
    View.canon ([⟨rHR, p⟩, ⟨rHL, q⟩] : List (View.Piece (Elt Ideal) S64x256 .f32)) (ix2 r k)
      = Cert.Spec.hidden (fun l => h (ix2 r l)) (fun k l => w (ix2 l k)) (fun k => b (ix1 k)) k := by
  rcases col_cases k with ⟨jj, hj, rfl⟩ | ⟨jj, hj, rfl⟩
  · show _ = (∑ i : Fin 256, Ideal.tanh (h (ix2 r i) * w (ix2 i ⟨jj.val, hj⟩))) + b (ix1 ⟨jj.val, hj⟩)
    rw [canon_halves_left p q r jj hj, hq r jj, ld_BL b jj hj]
    congr 1
    exact Finset.sum_congr rfl fun i _ => by rw [ld_WL w i jj hj]
  · show _ = (∑ i : Fin 256, Ideal.tanh (h (ix2 r i) * w (ix2 i ⟨128 + jj.val, hj⟩))) + b (ix1 ⟨128 + jj.val, hj⟩)
    rw [canon_halves_right p q r jj hj, hp r jj, ld_BR b jj hj]
    congr 1
    exact Finset.sum_congr rfl fun i _ => by rw [ld_WR w i jj hj]

/-- The first scratch at (r, k) is the first hidden layer's unit k on row r. -/
theorem S1_apply (x : Vec Ideal S64x256 .f32) (w0 : Vec Ideal S256x256 .f32) (b0 : Vec Ideal S256 .f32) (r : Fin 64) (k : Fin 256) :
    S1 (F := Ideal) x w0 b0 (ix2 r k)
      = Cert.Spec.hidden (fun l => x (ix2 r l)) (fun k l => w0 (ix2 l k)) (fun k => b0 (ix1 k)) k :=
  hidden_of_halves x w0 b0 _ _ (fun r jj => pay1_apply x _ _ r jj) (fun r jj => pay2_apply x _ _ r jj) r k

/-- The second scratch over activations h, at (r, k), is the hidden layer's unit k on row r of h. -/
theorem S2_apply (h : Vec Ideal S64x256 .f32) (w1 : Vec Ideal S256x256 .f32) (b1 : Vec Ideal S256 .f32) (r : Fin 64) (k : Fin 256) :
    S2 (F := Ideal) h w1 b1 (ix2 r k)
      = Cert.Spec.hidden (fun l => h (ix2 r l)) (fun k l => w1 (ix2 l k)) (fun k => b1 (ix1 k)) k :=
  hidden_of_halves h w1 b1 _ _ (fun r jj => pay5_apply h _ _ r jj) (fun r jj => pay6_apply h _ _ r jj) r k

/-- Entry (r, o) of the output block is the network on row r, read through the transposed weight blocks. -/
theorem OUT_apply (x : Vec Ideal S64x256 .f32) (w0 : Vec Ideal S256x256 .f32) (b0 : Vec Ideal S256 .f32) (w1 : Vec Ideal S256x256 .f32) (b1 : Vec Ideal S256 .f32) (w2 : Vec Ideal S256x128 .f32) (b2 : Vec Ideal S128 .f32) (r : Fin 64) (o : Fin 128) :
    OUT (F := Ideal) x w0 b0 w1 b1 w2 b2 (ix2 r o)
      = Cert.Spec.net (fun l => x (ix2 r l)) (fun k l => w0 (ix2 l k)) (fun k l => w1 (ix2 l k)) (fun o' l => w2 (ix2 l o'))
          (fun k => b0 (ix1 k)) (fun k => b1 (ix1 k)) (fun o' => b2 (ix1 o')) o := by
  have hS1 : (fun l => S1 (F := Ideal) x w0 b0 (ix2 r l))
      = Cert.Spec.hidden (fun l => x (ix2 r l)) (fun k l => w0 (ix2 l k)) (fun k => b0 (ix1 k)) :=
    funext fun l => S1_apply x w0 b0 r l
  unfold OUT
  rw [pay7_apply]
  show _ = (∑ i : Fin 256, Cert.Spec.hidden (Cert.Spec.hidden (fun l => x (ix2 r l)) (fun k l => w0 (ix2 l k)) (fun k => b0 (ix1 k)))
      (fun k l => w1 (ix2 l k)) (fun k => b1 (ix1 k)) i * w2 (ix2 i o)) + b2 (ix1 o)
  refine congrArg (· + b2 (ix1 o)) (Finset.sum_congr rfl fun i _ => ?_)
  rw [S2_apply, hS1]

end Cert.Proof.KI

end
-- ==== Proof.KI.Final.lean ====
import proofs.«409890_j44813688767073_3_alg».proof.Proof.KI.Body
import proofs.«409890_j44813688767073_3_alg».proof.Proof.KI.Value
/-
  From the 32 output blocks to the output array: grid point t writes rows [64 t, 64 t + 64) of the 2048 × 128 result,
  the blocks tile the array, and each block is the network on its own 64 rows of the batch; so the array after the run
  is the network on every row.
-/

set_option maxRecDepth 16384

noncomputable section

namespace Cert.Proof.KI

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The block indices over the grid: the batch window and the result window sit at block row t, column block 0;
    every weight and bias window is the whole array, at block 0. -/
theorem blockIdx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The batch block of point t is rows 64 t … 64 t + 63 of the batch. -/
theorem xblk_apply (c : Dev nD) (t : Fin cfg0.N) (y : S64x256.Idx) (k : S2048x256.Idx)
    (hk0 : (k 0).val = 64 * t.val + (y 0).val) (hk1 : (k 1).val = (y 1).val) :
    (iblk m c 0 t : Vec Ideal S64x256 .f32) y = (V m c main_arg0 : S2048x256.Idx → EReal) k := by
  obtain ⟨e0, e1, -⟩ := blockIdx_facts t
  unfold iblk
  rw [View.read_apply]
  show V m c main_arg0 (((cfg0.win 0).blk t).view.emb y) = V m c main_arg0 k
  congr 1
  funext a
  apply Fin.ext
  match a with
  | ⟨0, _⟩ => show win0_0.index t (0 : Fin 2) * 64 + 1 * (y 0).val = (k 0).val; omega
  | ⟨1, _⟩ => show win0_0.index t (1 : Fin 2) * 256 + 1 * (y 1).val = (k 1).val; omega

/-- A square weight block is the whole staged weight array (first hidden layer). -/
theorem w0blk_apply (c : Dev nD) (t : Fin cfg0.N) (y : S256x256.Idx) :
    (iblk m c 1 t : Vec Ideal S256x256 .f32) y = (V m c main_v11 : S256x256.Idx → EReal) y := by
  obtain ⟨-, -, e0, e1, -⟩ := blockIdx_facts t
  unfold iblk
  rw [View.read_apply]
  show V m c main_v11 (((cfg0.win 1).blk t).view.emb y) = V m c main_v11 y
  congr 1
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The first bias block is the whole bias array. -/
theorem b0blk_apply (c : Dev nD) (t : Fin cfg0.N) (y : S256.Idx) :
    (iblk m c 2 t : Vec Ideal S256 .f32) y = (V m c main_arg2 : S256.Idx → EReal) y := by
  obtain ⟨-, -, -, -, e0, -⟩ := blockIdx_facts t
  unfold iblk
  rw [View.read_apply]
  show V m c main_arg2 (((cfg0.win 2).blk t).view.emb y) = V m c main_arg2 y
  congr 1
  funext a
  apply Fin.ext
  match a with
  | ⟨0, _⟩ => show win0_2.index t (0 : Fin 1) * 256 + 1 * (y 0).val = (y 0).val; omega

/-- The second square weight block is the whole staged weight array (second hidden layer). -/
theorem w1blk_apply (c : Dev nD) (t : Fin cfg0.N) (y : S256x256.Idx) :
    (iblk m c 3 t : Vec Ideal S256x256 .f32) y = (V m c main_v23 : S256x256.Idx → EReal) y := by
  obtain ⟨-, -, -, -, -, e0, e1, -⟩ := blockIdx_facts t
  unfold iblk
  rw [View.read_apply]
  show V m c main_v23 (((cfg0.win 3).blk t).view.emb y) = V m c main_v23 y
  congr 1
  funext a
  apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The second bias block is the whole bias array. -/
theorem b1blk_apply (c : Dev nD) (t : Fin cfg0.N) (y : S256.Idx) :
    (iblk m c 4 t : Vec Ideal S256 .f32) y = (V m c main_arg4 : S256.Idx → EReal) y := by
  obtain ⟨-, -, -, -, -, -, -, e0, -⟩ := blockIdx_facts t
  unfold iblk
  rw [View.read_apply]
  show V m c main_arg4 (((cfg0.win 4).blk t).view.emb y) = V m c main_arg4 y
  congr 1
  funext a
  apply Fin.ext
  match a with
  | ⟨0, _⟩ => show win0_4.index t (0 : Fin 1) * 256 + 1 * (y 0).val = (y 0).val; omega

/-- The last layer's weight block is the whole staged 256 × 128 weight array. -/
theorem w2blk_apply (c : Dev nD) (t : Fin cfg0.N) (y : S256x128.Idx) :
    (iblk m c 5 t : Vec Ideal S256x128 .f32) y = (V m c main_v35 : S256x128.Idx → EReal) y := by
  obtain ⟨-, -, -, -, -, -, -, -, e0, e1, -⟩ := blockIdx_facts t
  unfold iblk
  rw [View.read_apply]
  show V m c main_v35 (((cfg0.win 5).blk t).view.emb y) = V m c main_v35 y
  congr 1
  funext a
  apply Fin.ext
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- The last bias block is the whole 128-entry bias array. -/
theorem b2blk_apply (c : Dev nD) (t : Fin cfg0.N) (y : S128.Idx) :
    (iblk m c 6 t : Vec Ideal S128 .f32) y = (V m c main_arg6 : S128.Idx → EReal) y := by
  obtain ⟨-, -, -, -, -, -, -, -, -, -, e0, -⟩ := blockIdx_facts t
  unfold iblk
  rw [View.read_apply]
  show V m c main_arg6 (((cfg0.win 6).blk t).view.emb y) = V m c main_arg6 y
  congr 1
  funext a
  apply Fin.ext
  match a with
  | ⟨0, _⟩ => show win0_6.index t (0 : Fin 1) * 128 + 1 * (y 0).val = (y 0).val; omega

/-- The network on every batch row, of the arrays the region finds: what the result array is to hold. -/
abbrev NET (c : Dev nD) : S2048x128.Idx → EReal :=
  Cert.Spec.G (R := 2048) (V m c main_arg0)
    (fun j => (V m c main_v11 : S256x256.Idx → EReal) (ix2 (j 1) (j 0)))
    (fun j => (V m c main_v23 : S256x256.Idx → EReal) (ix2 (j 1) (j 0)))
    (fun j => (V m c main_v35 : S256x128.Idx → EReal) (ix2 (j 1) (j 0)))
    (V m c main_arg2) (V m c main_arg4) (V m c main_arg6)

/-- Entry (r, o) of the block point t computes is the network's output unit o on batch row 64 t + r. -/
theorem out_entry (c : Dev nD) (t : Fin cfg0.N) (j : S64x128.Idx) (k : S2048x128.Idx)
    (hk0 : (k 0).val = 64 * t.val + (j 0).val) (hk1 : (k 1).val = (j 1).val) :
    OUT (F := Ideal) (iblk m c 0 t) (iblk m c 1 t) (iblk m c 2 t) (iblk m c 3 t) (iblk m c 4 t) (iblk m c 5 t) (iblk m c 6 t) j
      = NET m c k := by
  obtain ⟨r, o, rfl⟩ : ∃ r o, j = ix2 r o := ⟨j 0, j 1, eq_ix2 j⟩
  refine (OUT_apply _ _ _ _ _ _ _ r o).trans ?_
  have hx : (fun l => (iblk m c 0 t : Vec Ideal S64x256 .f32) (ix2 r l))
      = fun l => (V m c main_arg0 : S2048x256.Idx → EReal) (ix2 (k 0) l) :=
    funext fun l => xblk_apply m c t (ix2 r l) (ix2 (k 0) l) hk0 rfl
  have hw0 : (fun q l => (iblk m c 1 t : Vec Ideal S256x256 .f32) (ix2 l q))
      = fun q l => (V m c main_v11 : S256x256.Idx → EReal) (ix2 l q) :=
    funext fun q => funext fun l => w0blk_apply m c t (ix2 l q)
  have hw1 : (fun q l => (iblk m c 3 t : Vec Ideal S256x256 .f32) (ix2 l q))
      = fun q l => (V m c main_v23 : S256x256.Idx → EReal) (ix2 l q) :=
    funext fun q => funext fun l => w1blk_apply m c t (ix2 l q)
  have hw2 : (fun q l => (iblk m c 5 t : Vec Ideal S256x128 .f32) (ix2 l q))
      = fun q l => (V m c main_v35 : S256x128.Idx → EReal) (ix2 l q) :=
    funext fun q => funext fun l => w2blk_apply m c t (ix2 l q)
  have hb0 : (fun q => (iblk m c 2 t : Vec Ideal S256 .f32) (ix1 q))
      = fun q => (V m c main_arg2 : S256.Idx → EReal) (ix1 q) :=
    funext fun q => b0blk_apply m c t (ix1 q)
  have hb1 : (fun q => (iblk m c 4 t : Vec Ideal S256 .f32) (ix1 q))
      = fun q => (V m c main_arg4 : S256.Idx → EReal) (ix1 q) :=
    funext fun q => b1blk_apply m c t (ix1 q)
  have hb2 : (fun q => (iblk m c 6 t : Vec Ideal S128 .f32) (ix1 q))
      = fun q => (V m c main_arg6 : S128.Idx → EReal) (ix1 q) :=
    funext fun q => b2blk_apply m c t (ix1 q)
  have ho : o = k 1 := Fin.ext hk1.symm
  rw [hx, hw0, hw1, hw2, hb0, hb1, hb2, ho]
  rfl

/-- What point t writes back is block t of the network's array. -/
theorem flushed_out (c : Dev nD) (t : Fin cfg0.N) :
    (dats m 0 c).flushed 7 t = ((cfg0.win 7).blk t).view.read (Elt Ideal) (NET m c) := by
  show (cfg0.win 7).cut (grid0.coords t) ((dats m 0 c).after 7 t) = _
  rw [after0_7]
  obtain ⟨-, -, -, -, -, -, -, -, -, -, -, e0, e1⟩ := blockIdx_facts t
  funext j
  show OUT (F := Ideal) (iblk m c 0 t) (iblk m c 1 t) (iblk m c 2 t) (iblk m c 3 t) (iblk m c 4 t) (iblk m c 5 t) (iblk m c 6 t) j
    = NET m c (((cfg0.win 7).blk t).view.emb j)
  refine out_entry m c t j _ ?_ ?_
  · show win0_7.index t (0 : Fin 2) * 64 + 1 * (j 0).val = 64 * t.val + (j 0).val
    omega
  · show win0_7.index t (1 : Fin 2) * 128 + 1 * (j 1).val = (j 1).val
    omega

/-- An index of the result array is in point t's block iff each coordinate is in the block's range on its axis. -/
theorem mem_outblk (t : Fin cfg0.N) (i : S2048x128.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v36).slice (win0_7.rect t)).set ↔ _
  rw [View.set_slice_whole, Rect.mem_set_unit]
  exact Iff.rfl

/-- The 32 blocks tile the result array: row ρ is in the block of point ρ / 64. -/
theorem result_tiled (i : S2048x128.Idx) :
    ∃ t : Fin cfg0.N, (cfg0.win 7).flush t = true ∧ i ∈ ((cfg0.win 7).blk t).view.set := by
  have hi0 : (i 0).val < 2048 := (i 0).isLt
  have hi1 : (i 1).val < 128 := (i 1).isLt
  have hN : cfg0.N = 32 := N_0
  let t : Fin cfg0.N := ⟨(i 0).val / 64, by rw [hN]; omega⟩
  obtain ⟨-, -, -, -, -, -, -, -, -, -, -, e0, e1⟩ := blockIdx_facts t
  have ht : t.val = (i 0).val / 64 := rfl
  refine ⟨t, flush0_7 t, ?_⟩
  rw [mem_outblk]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 128 ≤ (i 1).val ∧ (i 1).val < win0_7.index t (1 : Fin 2) * 128 + 128; omega

/-- The result array after the run, as one function of the arrays the region finds: the network on every batch row,
    the weights read through the staged transposes. -/
theorem final_out (c : Dev nD) :
    ((dats m 0 c).arrAt 7 cfg0.N : S2048x128.Idx → EReal)
      = Cert.Spec.G (R := 2048) (V m c main_arg0)
          (fun j => (V m c main_v11 : S256x256.Idx → EReal) (ix2 (j 1) (j 0)))
          (fun j => (V m c main_v23 : S256x256.Idx → EReal) (ix2 (j 1) (j 0)))
          (fun j => (V m c main_v35 : S256x128.Idx → EReal) (ix2 (j 1) (j 0)))
          (V m c main_arg2) (V m c main_arg4) (V m c main_arg6) :=
  (dats m 0 c).arrAt_eq_of_cover 7 (NET m c) (fun t _ => flushed_out m c t) result_tiled

end Cert.Proof.KI

end
-- ==== Proof.KI.Weights.lean ====
import proofs.«409890_j44813688767073_3_alg».proof.Proof.KI.Kit
import proofs.«409890_j44813688767073_3_alg».proof.Proof.RefReadP
import Idealize.ShloMosaic.Lib.StableHlo.Run
import Idealize.ShloMosaic.Lib.ValueIdx
import Idealize.ShloMosaic.Lib.ValueLayout
import Idealize.ShloMosaic.Lib.Pipeline.Value
/-
  The three weight arrays the region finds staged: each is the transpose of the selection stage of its layer — the same
  chain of host operations (the four candidate functions of W stacked, the index wrapped and range-checked, the gather,
  the select against the fill value) that the reference applies to the same arguments. The chain is never opened: it is
  named by the reference's stage function and carried as one function of (W, idx).
-/

set_option maxRecDepth 16384

noncomputable section

namespace Cert.Proof.KI

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The staged arrays as whole arrays

Each staged weight array is written once, by the transpose that ends its layer's selection chain, and by no later
operation; the chain before it is, operation for operation, the reference's selection stage of the same two arguments
(the weights and the index array), so the array is the transpose of that stage. -/

set_option maxHeartbeats 4000000 in
/-- Layer 0's staged weights are the transpose of the selected weights of (W0, idx0). -/
theorem V_main_v11 (c : Dev nD) :
    (V m c main_v11 : S256x256.Idx → Elt F .f32)
      = transpose S256x256 [1, 0] (Cert.ReferenceIdeal.ReadP.val_main_v10 (F := F) (m ((c : Thread nD τ).loc main_arg1)) (m ((c : Thread nD τ).loc main_arg7))) transposes_S256x256_S256x256_1_0 := by
  dsimp only [V]
  simp only [hostOps0, hostOps0_1, hostOps0_2, hostOps0_3, hostOps0_4, hostOps0_5, hostOps0_6, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.quaternary_result', StableHlo.reshape_result', StableHlo.nary4_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  simp only [StableHlo.TRef.ofBuf, StableHlo.TRef.toBuf, cast_eq]
  repeat (first
    | rw [StableHlo.unary_result] | rw [StableHlo.binary_result]
    | (rw [StableHlo.unary_result_ne]; rotate_left; decide)
    | (rw [StableHlo.binary_result_ne]; rotate_left; decide))
  rfl

set_option maxHeartbeats 4000000 in
/-- Layer 1's staged weights are the transpose of the selected weights of (W1, idx1). -/
theorem V_main_v23 (c : Dev nD) :
    (V m c main_v23 : S256x256.Idx → Elt F .f32)
      = transpose S256x256 [1, 0] (Cert.ReferenceIdeal.ReadP.val_main_v31 (F := F) (m ((c : Thread nD τ).loc main_arg3)) (m ((c : Thread nD τ).loc main_arg8))) transposes_S256x256_S256x256_1_0 := by
  dsimp only [V]
  simp only [hostOps0, hostOps0_1, hostOps0_2, hostOps0_3, hostOps0_4, hostOps0_5, hostOps0_6, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.quaternary_result', StableHlo.reshape_result', StableHlo.nary4_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  simp only [StableHlo.TRef.ofBuf, StableHlo.TRef.toBuf, cast_eq]
  repeat (first
    | rw [StableHlo.unary_result] | rw [StableHlo.binary_result]
    | (rw [StableHlo.unary_result_ne]; rotate_left; decide)
    | (rw [StableHlo.binary_result_ne]; rotate_left; decide))
  rfl

set_option maxHeartbeats 4000000 in
/-- Layer 2's staged weights are the transpose of the selected weights of (W2, idx2). -/
theorem V_main_v35 (c : Dev nD) :
    (V m c main_v35 : S256x128.Idx → Elt F .f32)
      = transpose S256x128 [1, 0] (Cert.ReferenceIdeal.ReadP.val_main_v52 (F := F) (m ((c : Thread nD τ).loc main_arg5)) (m ((c : Thread nD τ).loc main_arg9))) transposes_S128x256_S256x128_1_0 := by
  dsimp only [V]
  simp only [hostOps0, hostOps0_1, hostOps0_2, hostOps0_3, hostOps0_4, hostOps0_5, hostOps0_6, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.quaternary_result', StableHlo.reshape_result', StableHlo.nary4_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']
  simp only [StableHlo.TRef.ofBuf, StableHlo.TRef.toBuf, cast_eq]
  repeat (first
    | rw [StableHlo.unary_result] | rw [StableHlo.binary_result]
    | (rw [StableHlo.unary_result_ne]; rotate_left; decide)
    | (rw [StableHlo.binary_result_ne]; rotate_left; decide))
  rfl

/-! ## Read at an index: a transposed matrix at (i, k) is the matrix at (k, i) -/

/-- Layer 0's staged weights at (input i, unit k) are the selected weights of (W0, idx0) at (k, i). -/
theorem V_we0 (c : Dev nD) (i k : Fin 256) :
    (V m c main_v11 : S256x256.Idx → Elt F .f32) (ix2 i k)
      = Cert.ReferenceIdeal.ReadP.val_main_v10 (F := F) (m ((c : Thread nD τ).loc main_arg1)) (m ((c : Thread nD τ).loc main_arg7)) (ix2 k i) :=
  (congrFun (V_main_v11 m c) (ix2 i k)).trans (transpose_ix2_apply _ _ i k)

/-- Layer 1's staged weights at (input i, unit k) are the selected weights of (W1, idx1) at (k, i). -/
theorem V_we1 (c : Dev nD) (i k : Fin 256) :
    (V m c main_v23 : S256x256.Idx → Elt F .f32) (ix2 i k)
      = Cert.ReferenceIdeal.ReadP.val_main_v31 (F := F) (m ((c : Thread nD τ).loc main_arg3)) (m ((c : Thread nD τ).loc main_arg8)) (ix2 k i) :=
  (congrFun (V_main_v23 m c) (ix2 i k)).trans (transpose_ix2_apply _ _ i k)

/-- Layer 2's staged weights at (input i, unit o) are the selected weights of (W2, idx2) at (o, i). -/
theorem V_we2 (c : Dev nD) (i : Fin 256) (o : Fin 128) :
    (V m c main_v35 : S256x128.Idx → Elt F .f32) (ix2 i o)
      = Cert.ReferenceIdeal.ReadP.val_main_v52 (F := F) (m ((c : Thread nD τ).loc main_arg5)) (m ((c : Thread nD τ).loc main_arg9)) (ix2 o i) :=
  (congrFun (V_main_v35 m c) (ix2 i o)).trans (transpose_ix2_apply _ _ i o)

end Cert.Proof.KI

end
-- ==== Proof.RefSpec.lean ====
import proofs.«409890_j44813688767073_3_alg».proof.Proof.RefReadP
import proofs.«409890_j44813688767073_3_alg».proof.Proof.Spec
import Idealize.ShloMosaic.Lib.ValueIdx
import Idealize.ShloMosaic.Lib.Pipeline.Value
import Idealize.ShloMosaic.PureOps.Ideal.Laws
/-
  The reference's result on the extended reals is the network on every batch row. Its three layers each broadcast the
  activations and the selected weights to (row, unit, input), multiply, apply tanh (hidden layers), sum over the inputs
  from a zero initial value and add the broadcast bias; read at an index that is one output unit of the row
  specification. The selected weights stay the stage functions of (W, idx): their chain is not opened.
-/

noncomputable section

namespace Cert.Proof.RefSpec

open Cert.ReferenceIdeal Cert.ReferenceIdeal.ReadP
open Idealize.ShloMosaic Idealize.ShloMosaic.ValueIdx

/-- Two composed index maps agree when they agree on each axis's coordinate value. -/
theorem idx_ext {s : Shape} {i j : s.Idx} (h : ∀ a, (i a).val = (j a).val) : i = j :=
  funext fun a => Fin.ext (h a)

/-- The first hidden layer at (row r, unit k) is the specification's tanh unit of the row of x0, the selected weights
    of unit k, and the bias of unit k. -/
theorem h1_at
    (x0 : (⟨S2048x256, .f32⟩ : BufTy).Contents (Elt Ideal)) (x1 : (⟨S256x256, .f32⟩ : BufTy).Contents (Elt Ideal))
    (x2 : (⟨S256, .f32⟩ : BufTy).Contents (Elt Ideal)) (x7 : (⟨S256x256, .i32⟩ : BufTy).Contents (Elt Ideal))
    (r : Fin 2048) (k : Fin 256) :
    (val_main_v20 (F := Ideal) x0 x1 x2 x7 : S2048x256.Idx → EReal) (ix2 r k)
      = Cert.Spec.unit Ideal.tanh (fun l => x0 (ix2 r l)) (fun l => val_main_v10 (F := Ideal) x1 x7 (ix2 k l)) (x2 (ix1 k)) := by
  rw [val_main_v20_apply, Ideal.addf_def, val_main_v17_apply, val_main_cst_apply, Ideal.ofBits_def, Ideal.ofBits_zero_f32,
    zero_add, val_main_v19_apply, val_main_v18_apply]
  unfold Cert.Spec.unit
  refine congrArg₂ (· + ·) (Finset.sum_congr rfl fun l _ => ?_) ?_
  · rw [val_main_v16_apply, Ideal.hostUnary_tanh_def, val_main_v15_apply, Ideal.mulf_def, val_main_v13_apply,
      val_main_v11_apply, val_main_v14_apply, val_main_v12_apply]
    refine congrArg Ideal.tanh (congrArg₂ (· * ·) (congrArg x0 ?_) (congrArg (val_main_v10 (F := Ideal) x1 x7) ?_))
    · exact idx_ext fun a => by match a with | ⟨0, _⟩ => rfl | ⟨1, _⟩ => rfl
    · exact idx_ext fun a => by match a with | ⟨0, _⟩ => rfl | ⟨1, _⟩ => rfl
  · exact congrArg x2 (idx_ext fun a => by match a with | ⟨0, _⟩ => rfl)

/-- The second hidden layer at (row r, unit k) is the specification's tanh unit of the row of the first layer's
    output (kept as the stage function), the selected weights of unit k, and the bias of unit k. -/
theorem h2_at
    (x0 : (⟨S2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x7 x8 : (⟨S256x256, .i32⟩ : BufTy).Contents (Elt Ideal))
    (r : Fin 2048) (k : Fin 256) :
    (val_main_v41 (F := Ideal) x0 x1 x2 x3 x4 x7 x8 : S2048x256.Idx → EReal) (ix2 r k)
      = Cert.Spec.unit Ideal.tanh (fun l => val_main_v20 (F := Ideal) x0 x1 x2 x7 (ix2 r l))
          (fun l => val_main_v31 (F := Ideal) x3 x8 (ix2 k l)) (x4 (ix1 k)) := by
  rw [val_main_v41_apply, Ideal.addf_def, val_main_v38_apply, val_main_cst_0_apply, Ideal.ofBits_def, Ideal.ofBits_zero_f32,
    zero_add, val_main_v40_apply, val_main_v39_apply]
  unfold Cert.Spec.unit
  refine congrArg₂ (· + ·) (Finset.sum_congr rfl fun l _ => ?_) ?_
  · rw [val_main_v37_apply, Ideal.hostUnary_tanh_def, val_main_v36_apply, Ideal.mulf_def, val_main_v34_apply,
      val_main_v32_apply, val_main_v35_apply, val_main_v33_apply]
    refine congrArg Ideal.tanh (congrArg₂ (· * ·) (congrArg (val_main_v20 (F := Ideal) x0 x1 x2 x7) ?_)
      (congrArg (val_main_v31 (F := Ideal) x3 x8) ?_))
    · exact idx_ext fun a => by match a with | ⟨0, _⟩ => rfl | ⟨1, _⟩ => rfl
    · exact idx_ext fun a => by match a with | ⟨0, _⟩ => rfl | ⟨1, _⟩ => rfl
  · exact congrArg x4 (idx_ext fun a => by match a with | ⟨0, _⟩ => rfl)

/-- The result at (row r, unit o) is the specification's linear unit of the row of the second layer's output (kept as
    the stage function), the selected weights of unit o, and the bias of unit o. -/
theorem out_at
    (x0 : (⟨S2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S128x256, .f32⟩ : BufTy).Contents (Elt Ideal))
    (x6 : (⟨S128, .f32⟩ : BufTy).Contents (Elt Ideal)) (x7 x8 : (⟨S256x256, .i32⟩ : BufTy).Contents (Elt Ideal))
    (x9 : (⟨S128x256, .i32⟩ : BufTy).Contents (Elt Ideal)) (r : Fin 2048) (o : Fin 128) :
    (val_main_v61 (F := Ideal) x0 x1 x2 x3 x4 x5 x6 x7 x8 x9 : S2048x128.Idx → EReal) (ix2 r o)
      = Cert.Spec.unit id (fun l => val_main_v41 (F := Ideal) x0 x1 x2 x3 x4 x7 x8 (ix2 r l))
          (fun l => val_main_v52 (F := Ideal) x5 x9 (ix2 o l)) (x6 (ix1 o)) := by
  rw [val_main_v61_apply, Ideal.addf_def, val_main_v58_apply, val_main_cst_1_apply, Ideal.ofBits_def, Ideal.ofBits_zero_f32,
    zero_add, val_main_v60_apply, val_main_v59_apply]
  unfold Cert.Spec.unit
  refine congrArg₂ (· + ·) (Finset.sum_congr rfl fun l _ => ?_) ?_
  · rw [val_main_v57_apply, Ideal.mulf_def, val_main_v55_apply, val_main_v53_apply, val_main_v56_apply, val_main_v54_apply]
    refine congrArg₂ (· * ·) (congrArg (val_main_v41 (F := Ideal) x0 x1 x2 x3 x4 x7 x8) ?_)
      (congrArg (val_main_v52 (F := Ideal) x5 x9) ?_)
    · exact idx_ext fun a => by match a with | ⟨0, _⟩ => rfl | ⟨1, _⟩ => rfl
    · exact idx_ext fun a => by match a with | ⟨0, _⟩ => rfl | ⟨1, _⟩ => rfl
  · exact congrArg x6 (idx_ext fun a => by match a with | ⟨0, _⟩ => rfl)

/-- The reference's last stage is the specification's array function of the arguments and the three selection stages. -/
theorem ref_is_spec
    (x0 : (⟨S2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S128x256, .f32⟩ : BufTy).Contents (Elt Ideal))
    (x6 : (⟨S128, .f32⟩ : BufTy).Contents (Elt Ideal)) (x7 x8 : (⟨S256x256, .i32⟩ : BufTy).Contents (Elt Ideal))
    (x9 : (⟨S128x256, .i32⟩ : BufTy).Contents (Elt Ideal)) :
    (val_main_v61 (F := Ideal) x0 x1 x2 x3 x4 x5 x6 x7 x8 x9 : S2048x128.Idx → EReal)
      = Cert.Spec.G (R := 2048) x0 (val_main_v10 (F := Ideal) x1 x7) (val_main_v31 (F := Ideal) x3 x8) (val_main_v52 (F := Ideal) x5 x9) x2 x4 x6 := by
  funext j
  obtain ⟨r, o, rfl⟩ : ∃ (r : Fin 2048) (o : Fin 128), j = ix2 r o := ⟨j 0, j 1, eq_ix2 j⟩
  rw [out_at]
  show _ = Cert.Spec.unit id (Cert.Spec.hidden (Cert.Spec.hidden (fun l => x0 (ix2 r l))
      (fun k l => val_main_v10 (F := Ideal) x1 x7 (ix2 k l)) (fun k => x2 (ix1 k)))
      (fun k l => val_main_v31 (F := Ideal) x3 x8 (ix2 k l)) (fun k => x4 (ix1 k)))
      (fun l => val_main_v52 (F := Ideal) x5 x9 (ix2 o l)) (x6 (ix1 o))
  refine congrArg (fun h => Cert.Spec.unit id h _ _) (funext fun k => ?_)
  rw [h2_at]
  show _ = Cert.Spec.unit Ideal.tanh (Cert.Spec.hidden (fun l => x0 (ix2 r l))
      (fun k l => val_main_v10 (F := Ideal) x1 x7 (ix2 k l)) (fun k => x2 (ix1 k)))
      (fun l => val_main_v31 (F := Ideal) x3 x8 (ix2 k l)) (x4 (ix1 k))
  refine congrArg (fun h => Cert.Spec.unit Ideal.tanh h _ _) (funext fun l => ?_)
  exact h1_at x0 x1 x2 x7 r l

end Cert.Proof.RefSpec

end
-- ==== Proof.lean ====
/-
  A three-layer network with per-weight selected nonlinearities, as one Pallas call against its jnp reference.

  For each layer the selected weight matrix We is chosen entry by entry among W, sin W, tanh W and W·W by an integer
  index array (a gather along a stacked axis, the index wrapped and range-checked, an out-of-range entry replaced by a
  fill value): both programs compute it on the host with the same operations from the same arguments, so it is carried
  as one function of (W, idx) and never opened. A layer maps a batch row h to  (∑ i, g (h i · We k i)) + b k  per output
  unit k, with g = tanh on the two hidden layers and the identity on the last.

  The kernel stages We transposed, (input, unit), works on 64 batch rows per grid point (32 points), produces each
  layer's units 128 at a time by broadcasting to (row, input, unit), multiplying, applying g and summing over the input
  axis, and keeps the hidden activations in two scratch buffers. The reference broadcasts to (row, unit, input) over the
  whole batch and sums over the last axis from a zero initial value. On the extended reals both are the same sum over
  the 256 inputs of the same products, a finite sum in a commutative monoid, so no finiteness of the inputs is used.

  * the three frames: the two kernel programs by the launch of the one pipeline over the body's triple (Proof/K,
    Proof/KI: one text for any float family), the reference by its run;
  * `preserves`: the idealization rewrote nothing;
  * `algebraic`: the kernel's result array is the network on every row of the batch (Proof/KI/Final over
    Proof/KI/Value), its staged weights are the transposes of the selection stages (Proof/KI/Weights), and the
    reference's last stage is the same array function (Proof/RefSpec).
-/
import proofs.«409890_j44813688767073_3_alg».proof.Defs
import proofs.«409890_j44813688767073_3_alg».proof.Proof.Gen.Kernel
import proofs.«409890_j44813688767073_3_alg».proof.Proof.Gen.KernelIdeal
import proofs.«409890_j44813688767073_3_alg».proof.Proof.Gen.ReferenceIdeal
import proofs.«409890_j44813688767073_3_alg».proof.Proof.Gen.Pre_finite_inputs
import proofs.«409890_j44813688767073_3_alg».proof.Proof.K.Body
import proofs.«409890_j44813688767073_3_alg».proof.Proof.KI.Body
import proofs.«409890_j44813688767073_3_alg».proof.Proof.KI.Final
import proofs.«409890_j44813688767073_3_alg».proof.Proof.KI.Weights
import proofs.«409890_j44813688767073_3_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx
open Cert.ReferenceIdeal.ReadP (val_main_v10 val_main_v31 val_main_v52 val_main_v61 val_main_v61_eq)

/-! ## The frames and the idealization -/

theorem frame_k : Cert.frame_Kernel := fun m ρ _ => Cert.Proof.K.frame m ρ
theorem frame_ki : Cert.frame_KernelIdeal := fun m ρ _ => Cert.Proof.KI.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-! ## The common result -/

/-- What both programs end with on core c: the network on every batch row, over the three selection stages of the
    arguments. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v36) :=
  Cert.Spec.G (R := 2048) (m ((c.tc : Thread Cert.KernelIdeal.nD Cert.KernelIdeal.τ).loc Cert.KernelIdeal.main_arg0))
    (val_main_v10 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg7)))
    (val_main_v31 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg8)))
    (val_main_v52 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg9)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))

section Kernel

open Cert.KernelIdeal

variable (m : (ℓ : Loc nD τ sig) → Buf (Elt Ideal) ℓ) (c : Dev nD)

/-- The staged weights, read back in (unit, input) order, are the selection stages of the arguments. -/
theorem we0_eq : (fun j : S256x256.Idx => (KI.V m c main_v11 : S256x256.Idx → EReal) (ix2 (j 1) (j 0)))
    = val_main_v10 (F := Ideal) (m ((c : Thread nD τ).loc main_arg1)) (m ((c : Thread nD τ).loc main_arg7)) :=
  funext fun j => (KI.V_we0 m c (j 1) (j 0)).trans (congrArg _ (eq_ix2 j).symm)
theorem we1_eq : (fun j : S256x256.Idx => (KI.V m c main_v23 : S256x256.Idx → EReal) (ix2 (j 1) (j 0)))
    = val_main_v31 (F := Ideal) (m ((c : Thread nD τ).loc main_arg3)) (m ((c : Thread nD τ).loc main_arg8)) :=
  funext fun j => (KI.V_we1 m c (j 1) (j 0)).trans (congrArg _ (eq_ix2 j).symm)
theorem we2_eq : (fun j : S128x256.Idx => (KI.V m c main_v35 : S256x128.Idx → EReal) (ix2 (j 1) (j 0)))
    = val_main_v52 (F := Ideal) (m ((c : Thread nD τ).loc main_arg5)) (m ((c : Thread nD τ).loc main_arg9)) :=
  funext fun j => (KI.V_we2 m c (j 1) (j 0)).trans (congrArg _ (eq_ix2 j).symm)

/-- The kernel's result array after the run is the common result. -/
theorem kernel_value : (KI.dats m 0 c).arrAt 7 cfg0.N = result m c := by
  refine (KI.final_out m c).trans ?_
  rw [we0_eq m c, we1_eq m c, we2_eq m c, KI.V_main_arg0 m c, KI.V_main_arg2 m c, KI.V_main_arg4 m c, KI.V_main_arg6 m c]
  rfl

end Kernel

/-! ## The value claim -/

/-- Both idealized programs, from memories agreeing on the ten arguments, end with the common result. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_value m c), (h c).2⟩)
      (KI.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9⟩ := hagree c
    rw [val_main_v61_eq, h0, h1, h2, h3, h4, h5, h6, h7, h8, h9]
    exact RefSpec.ref_is_spec _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
